-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x64x64 : Shape := ⟨4, ![32, 128, 64, 64]⟩
abbrev S256x128x3x3 : Shape := ⟨4, ![256, 128, 3, 3]⟩
abbrev S_ : Shape := ⟨0, ![]⟩

class Facts : Prop where
  bcast_S_S32x128x64x64 : S_.BroadcastsInDim S32x128x64x64 (![] : Fin 0 → Fin S32x128x64x64.rank)
  reducesTo_S32x128x64x64_S_d0_1_2_3 : S32x128x64x64.ReducesTo [0, 1, 2, 3] S_
  h_S_ : 0 < S_.numel
  bcast_S_S256x128x3x3 : S_.BroadcastsInDim S256x128x3x3 (![] : Fin 0 → Fin S256x128x3x3.rank)
  reducesTo_S256x128x3x3_S_d0_1_2_3 : S256x128x3x3.ReducesTo [0, 1, 2, 3] S_

variable [Facts]

def fn {F : FTy → Type} [FloatOps F] (main_arg0 : FVec F S32x128x64x64 .f32) (main_arg1 : FVec F S256x128x3x3 .f32) : IVec S_ 1 :=
  let main_v0 : FVec F S32x128x64x64 .f32 := Host.absf main_arg0
  let main_cst : FVec F S_ .f32 := constant S_ .f32 0x7F800000#32
  let main_v1 : FVec F S32x128x64x64 .f32 := broadcastInDim S32x128x64x64 ![] bcast_S_S32x128x64x64 main_cst
  let main_v2 : IVec S32x128x64x64 1 := cmpf .olt main_v0 main_v1
  let main_c : IVec S_ 1 := constantI S_ 1 1#1
  let main_v3 : IVec S_ 1 := (fun x v => Host.reduce IntOp.andi x v reducesTo_S32x128x64x64_S_d0_1_2_3 h_S_) main_v2 main_c
  let main_v4 : FVec F S256x128x3x3 .f32 := Host.absf main_arg1
  let main_cst_0 : FVec F S_ .f32 := constant S_ .f32 0x7F800000#32
  let main_v5 : FVec F S256x128x3x3 .f32 := broadcastInDim S256x128x3x3 ![] bcast_S_S256x128x3x3 main_cst_0
  let main_v6 : IVec S256x128x3x3 1 := cmpf .olt main_v4 main_v5
  let main_c_1 : IVec S_ 1 := constantI S_ 1 1#1
  let main_v7 : IVec S_ 1 := (fun x v => Host.reduce IntOp.andi x v reducesTo_S256x128x3x3_S_d0_1_2_3 h_S_) main_v6 main_c_1
  let main_v8 : IVec S_ 1 := andi main_v3 main_v7
  main_v8
-- ==== Kernel.lean ====
abbrev S32x128x64x64 : Shape := ⟨4, ![32, 128, 64, 64]⟩
abbrev S256x128x3x3 : Shape := ⟨4, ![256, 128, 3, 3]⟩
abbrev S_ : Shape := ⟨0, ![]⟩
abbrev S256 : Shape := ⟨1, ![256]⟩
abbrev S256x1x1x1 : Shape := ⟨4, ![256, 1, 1, 1]⟩
abbrev S3x3x128x256 : Shape := ⟨4, ![3, 3, 128, 256]⟩
abbrev S3x384x256 : Shape := ⟨3, ![3, 384, 256]⟩
abbrev S32x64x64x128 : Shape := ⟨4, ![32, 64, 64, 128]⟩
abbrev S32x66x66x128 : Shape := ⟨4, ![32, 66, 66, 128]⟩
abbrev S32x64x64x256 : Shape := ⟨4, ![32, 64, 64, 256]⟩
abbrev S1x66x66x128 : Shape := ⟨4, ![1, 66, 66, 128]⟩
abbrev S1x8x64x256 : Shape := ⟨4, ![1, 8, 64, 256]⟩
abbrev S1x10x66x128 : Shape := ⟨4, ![1, 10, 66, 128]⟩
abbrev S10x66x128 : Shape := ⟨3, ![10, 66, 128]⟩
abbrev S10x64x128 : Shape := ⟨3, ![10, 64, 128]⟩
abbrev S8x64x128 : Shape := ⟨3, ![8, 64, 128]⟩
abbrev S8x64x384 : Shape := ⟨3, ![8, 64, 384]⟩
abbrev S512x384 : Shape := ⟨2, ![512, 384]⟩
abbrev S1x384x256 : Shape := ⟨3, ![1, 384, 256]⟩
abbrev S384x256 : Shape := ⟨2, ![384, 256]⟩
abbrev S512x256 : Shape := ⟨2, ![512, 256]⟩
abbrev S8x64x256 : Shape := ⟨3, ![8, 64, 256]⟩
abbrev S32x256x64x64 : Shape := ⟨4, ![32, 256, 64, 64]⟩

abbrev nBuf : Space → Nat
  | .hbm => 28
  | .vmem => 5
  | .smem => 0
  | _ => 0

abbrev bufTy : (tb : Table) → Fin (tcTables nBuf tb) → BufTy
  | .hbm, ⟨0, _⟩ => ⟨S32x128x64x64, .f32⟩
  | .hbm, ⟨1, _⟩ => ⟨S256x128x3x3, .f32⟩
  | .hbm, ⟨2, _⟩ => ⟨S256x128x3x3, .f32⟩
  | .hbm, ⟨3, _⟩ => ⟨S_, .f32⟩
  | .hbm, ⟨4, _⟩ => ⟨S256, .f32⟩
  | .hbm, ⟨5, _⟩ => ⟨S256x1x1x1, .f32⟩
  | .hbm, ⟨6, _⟩ => ⟨S256x1x1x1, .f32⟩
  | .hbm, ⟨7, _⟩ => ⟨S_, .f32⟩
  | .hbm, ⟨8, _⟩ => ⟨S256x1x1x1, .f32⟩
  | .hbm, ⟨9, _⟩ => ⟨S256x1x1x1, .f32⟩
  | .hbm, ⟨10, _⟩ => ⟨S_, .f32⟩
  | .hbm, ⟨11, _⟩ => ⟨S256x1x1x1, .f32⟩
  | .hbm, ⟨12, _⟩ => ⟨S256x1x1x1, .f32⟩
  | .hbm, ⟨13, _⟩ => ⟨S256x128x3x3, .f32⟩
  | .hbm, ⟨14, _⟩ => ⟨S256x128x3x3, .f32⟩
  | .hbm, ⟨15, _⟩ => ⟨S_, .f32⟩
  | .hbm, ⟨16, _⟩ => ⟨S256x128x3x3, .f32⟩
  | .hbm, ⟨17, _⟩ => ⟨S256x128x3x3, .f32⟩
  | .hbm, ⟨18, _⟩ => ⟨S3x3x128x256, .f32⟩
  | .hbm, ⟨19, _⟩ => ⟨S3x384x256, .f32⟩
  | .hbm, ⟨20, _⟩ => ⟨S3x384x256, .bf16⟩
  | .hbm, ⟨21, _⟩ => ⟨S32x64x64x128, .f32⟩
  | .hbm, ⟨22, _⟩ => ⟨S32x64x64x128, .bf16⟩
  | .hbm, ⟨23, _⟩ => ⟨S_, .i32⟩
  | .hbm, ⟨24, _⟩ => ⟨S_, .bf16⟩
  | .hbm, ⟨25, _⟩ => ⟨S32x66x66x128, .bf16⟩
  | .hbm, ⟨26, _⟩ => ⟨S32x64x64x256, .f32⟩
  | .hbm, ⟨27, _⟩ => ⟨S32x256x64x64, .f32⟩
  | .local _ .vmem, ⟨0, _⟩ => ⟨S1x66x66x128, .bf16⟩
  | .local _ .vmem, ⟨1, _⟩ => ⟨S1x66x66x128, .bf16⟩
  | .local _ .vmem, ⟨2, _⟩ => ⟨S3x384x256, .bf16⟩
  | .local _ .vmem, ⟨3, _⟩ => ⟨S1x8x64x256, .f32⟩
  | .local _ .vmem, ⟨4, _⟩ => ⟨S1x8x64x256, .f32⟩
  | _, _ => ⟨S32x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c8_i32 : BitVec 32 := 8#32
  let v0 : BitVec 32 := Scalar.muli arg1 c8_i32
  v0
def k0_off1 (i : grid0.Coords) : Fin 4 → Nat :=
  let c0 : Index := 0#32
  let arg1 : BitVec 32 := BitVec.ofNat 32 (i 1).val
  let c8_i32 : BitVec 32 := 8#32
  let v0 : BitVec 32 := Scalar.muli arg1 c8_i32
  let v1 : BitVec 32 := v0
  let v2 : Index := Scalar.indexCast v1
  let c0_0 : Index := 0#32
  let c0_1 : Index := 0#32
  ![0, v2.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x66x66x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S256x128x3x3_S256_d1_2_3 : S256x128x3x3.ReducesTo [1, 2, 3] S256
  h_S_ : 0 < S_.numel
  bcast_S256_S256x1x1x1_0 : S256.BroadcastsInDim S256x1x1x1 (![0] : Fin 1 → Fin S256x1x1x1.rank)
  bcast_S_S256x1x1x1 : S_.BroadcastsInDim S256x1x1x1 (![] : Fin 0 → Fin S256x1x1x1.rank)
  bcast_S256x1x1x1_S256x128x3x3_0_1_2_3 : S256x1x1x1.BroadcastsInDim S256x128x3x3 (![0, 1, 2, 3] : Fin 4 → Fin S256x128x3x3.rank)
  bcast_S_S256x128x3x3 : S_.BroadcastsInDim S256x128x3x3 (![] : Fin 0 → Fin S256x128x3x3.rank)
  transposes_S256x128x3x3_S3x3x128x256_3_2_1_0 : S256x128x3x3.Transposes [3, 2, 1, 0] S3x3x128x256
  shapeCasts_S3x3x128x256_S3x384x256 : S3x3x128x256.ShapeCasts S3x384x256
  bitsLt_bf16_f32 : FTy.bits .bf16 < FTy.bits .f32
  transposes_S32x128x64x64_S32x64x64x128_0_2_3_1 : S32x128x64x64.Transposes [0, 2, 3, 1] S32x64x64x128
  pads_S32x64x64x128_S32x66x66x128_000_110_110_000 : S32x64x64x128.Pads (![0, 1, 1, 0] : Fin 4 → Nat) ![0, 1, 1, 0] ![0, 0, 0, 0] S32x66x66x128
  h_S1x10x66x128 : 0 < S1x10x66x128.numel
  shapeCasts_S1x10x66x128_S10x66x128 : S1x10x66x128.ShapeCasts S10x66x128
  slices_S10x66x128_o0_0_0_S10x64x128 : S10x66x128.Slices ![0, 0, 0] S10x64x128
  slices_S10x64x128_o0_0_0_S8x64x128 : S10x64x128.Slices ![0, 0, 0] S8x64x128
  slices_S10x64x128_o1_0_0_S8x64x128 : S10x64x128.Slices ![1, 0, 0] S8x64x128
  slices_S10x64x128_o2_0_0_S8x64x128 : S10x64x128.Slices ![2, 0, 0] S8x64x128
  concatenates_S8x64x128_S8x64x128_S8x64x128_S8x64x384_d2 : Shape.Concatenates [S8x64x128, S8x64x128, S8x64x128] S8x64x384 2
  shapeCasts_S8x64x384_S512x384 : S8x64x384.ShapeCasts S512x384
  inb_S3x384x256_S1x384x256_0_0_0 : ∀ a, (![0, 0, 0] : Fin 3 → Nat) a + S1x384x256.size a ≤ S3x384x256.size a
  h_S1x384x256 : 0 < S1x384x256.numel
  shapeCasts_S1x384x256_S384x256 : S1x384x256.ShapeCasts S384x256
  slices_S10x66x128_o0_1_0_S10x64x128 : S10x66x128.Slices ![0, 1, 0] S10x64x128
  inb_S3x384x256_S1x384x256_1_0_0 : ∀ a, (![1, 0, 0] : Fin 3 → Nat) a + S1x384x256.size a ≤ S3x384x256.size a
  slices_S10x66x128_o0_2_0_S10x64x128 : S10x66x128.Slices ![0, 2, 0] S10x64x128
  inb_S3x384x256_S1x384x256_2_0_0 : ∀ a, (![2, 0, 0] : Fin 3 → Nat) a + S1x384x256.size a ≤ S3x384x256.size a
  shapeCasts_S512x256_S8x64x256 : S512x256.ShapeCasts S8x64x256
  inb_S1x8x64x256_S1x8x64x256_0_0_0_0 : ∀ a, (![0, 0, 0, 0] : Fin 4 → Nat) a + S1x8x64x256.size a ≤ S1x8x64x256.size a
  h_S1x8x64x256 : 0 < S1x8x64x256.numel
  shapeCasts_S1x8x64x256_S8x64x256 : S1x8x64x256.ShapeCasts S8x64x256
  shapeCasts_S8x64x256_S1x8x64x256 : S8x64x256.ShapeCasts S1x8x64x256
  transposes_S32x64x64x256_S32x256x64x64_0_3_1_2 : S32x64x64x256.Transposes [0, 3, 1, 2] S32x256x64x64
  dot_S512x384_S384x256_S512x256_1_0_0_1_n_n_wf : DotDims.WF S512x384 S384x256 S512x256 [1] [0] [0] [1] [] []
  hrank0 : 0 < grid0.rank
  k0_mult1_dvd : ∀ i : grid0.Coords, 8 ∣ (k0_mult1 i).toNat
  k0_off1_inb : ∀ i : grid0.Coords, ∀ a, (k0_off1 i) a + S1x10x66x128.size a ≤ S1x66x66x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x66x66x128.size a ≤ S32x66x66x128.size a
  hwx0_0 : ∀ i : grid0.Coords, EltTy.bits .bf16 = 32 ∨ (Rect.block (s := S32x66x66x128) S1x66x66x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x384x256.size a ≤ S3x384x256.size a
  hwx0_1 : ∀ i : grid0.Coords, EltTy.bits .bf16 = 32 ∨ (Rect.block (s := S3x384x256) S3x384x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x64x256.size a ≤ S32x64x64x256.size a
  hwx0_2 : ∀ i : grid0.Coords, EltTy.bits .f32 = 32 ∨ (Rect.block (s := S32x64x64x256) S1x8x64x256.size (cc0_transform_2 i) (hinb0_2 i)).WholeWords (EltTy.packing .f32)

variable [Facts₀]

def dot_S512x384_S384x256_S512x256_1_0_0_1_n_n : DotDims S512x384 S384x256 S512x256 where
  lhsContracting := [1]
  rhsContracting := [0]
  lhsNonContracting := [0]
  rhsNonContracting := [1]
  lhsBatch := []
  rhsBatch := []
  wf := dot_S512x384_S384x256_S512x256_1_0_0_1_n_n_wf

abbrev win0_0 : Pipeline.Window sig grid0 :=
  Pipeline.Window.ofSpec (Memref.whole main_v17) S1x66x66x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S3x384x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x8x64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x128x64x64 : Shape := ⟨4, ![32, 128, 64, 64]⟩
abbrev S256x128x3x3 : Shape := ⟨4, ![256, 128, 3, 3]⟩
abbrev S_ : Shape := ⟨0, ![]⟩
abbrev S256 : Shape := ⟨1, ![256]⟩
abbrev S256x1x1x1 : Shape := ⟨4, ![256, 1, 1, 1]⟩
abbrev S3x3x128x256 : Shape := ⟨4, ![3, 3, 128, 256]⟩
abbrev S1152x256 : Shape := ⟨2, ![1152, 256]⟩
abbrev S32x64x64x128 : Shape := ⟨4, ![32, 64, 64, 128]⟩
abbrev S32x66x66x128 : Shape := ⟨4, ![32, 66, 66, 128]⟩
abbrev S32x64x64x256 : Shape := ⟨4, ![32, 64, 64, 256]⟩
abbrev S1x66x66x128 : Shape := ⟨4, ![1, 66, 66, 128]⟩
abbrev S1x8x64x256 : Shape := ⟨4, ![1, 8, 64, 256]⟩
abbrev S1x10x66x128 : Shape := ⟨4, ![1, 10, 66, 128]⟩
abbrev S10x66x128 : Shape := ⟨3, ![10, 66, 128]⟩
abbrev S8x66x128 : Shape := ⟨3, ![8, 66, 128]⟩
abbrev S8x64x128 : Shape := ⟨3, ![8, 64, 128]⟩
abbrev S8x64x1152 : Shape := ⟨3, ![8, 64, 1152]⟩
abbrev S512x1152 : Shape := ⟨2, ![512, 1152]⟩
abbrev S512x256 : Shape := ⟨2, ![512, 256]⟩
abbrev S32x256x64x64 : Shape := ⟨4, ![32, 256, 64, 64]⟩

abbrev nBuf : Space → Nat
  | .hbm => 29
  | .vmem => 5
  | .smem => 0
  | _ => 0

abbrev bufTy : (tb : Table) → Fin (tcTables nBuf tb) → BufTy
  | .hbm, ⟨0, _⟩ => ⟨S32x128x64x64, .f32⟩
  | .hbm, ⟨1, _⟩ => ⟨S256x128x3x3, .f32⟩
  | .hbm, ⟨2, _⟩ => ⟨S256x128x3x3, .f32⟩
  | .hbm, ⟨3, _⟩ => ⟨S_, .f32⟩
  | .hbm, ⟨4, _⟩ => ⟨S256, .f32⟩
  | .hbm, ⟨5, _⟩ => ⟨S256x1x1x1, .f32⟩
  | .hbm, ⟨6, _⟩ => ⟨S256x1x1x1, .f32⟩
  | .hbm, ⟨7, _⟩ => ⟨S_, .f32⟩
  | .hbm, ⟨8, _⟩ => ⟨S256x1x1x1, .f32⟩
  | .hbm, ⟨9, _⟩ => ⟨S256x1x1x1, .f32⟩
  | .hbm, ⟨10, _⟩ => ⟨S_, .f32⟩
  | .hbm, ⟨11, _⟩ => ⟨S256x1x1x1, .f32⟩
  | .hbm, ⟨12, _⟩ => ⟨S256x1x1x1, .f32⟩
  | .hbm, ⟨13, _⟩ => ⟨S256x128x3x3, .f32⟩
  | .hbm, ⟨14, _⟩ => ⟨S256x128x3x3, .f32⟩
  | .hbm, ⟨15, _⟩ => ⟨S_, .f32⟩
  | .hbm, ⟨16, _⟩ => ⟨S256x128x3x3, .f32⟩
  | .hbm, ⟨17, _⟩ => ⟨S256x128x3x3, .f32⟩
  | .hbm, ⟨18, _⟩ => ⟨S3x3x128x256, .f32⟩
  | .hbm, ⟨19, _⟩ => ⟨S1152x256, .f32⟩
  | .hbm, ⟨20, _⟩ => ⟨S_, .i32⟩
  | .hbm, ⟨21, _⟩ => ⟨S_, .f32⟩
  | .hbm, ⟨22, _⟩ => ⟨S1152x256, .f32⟩
  | .hbm, ⟨23, _⟩ => ⟨S32x64x64x128, .f32⟩
  | .hbm, ⟨24, _⟩ => ⟨S_, .i32⟩
  | .hbm, ⟨25, _⟩ => ⟨S_, .f32⟩
  | .hbm, ⟨26, _⟩ => ⟨S32x66x66x128, .f32⟩
  | .hbm, ⟨27, _⟩ => ⟨S32x64x64x256, .f32⟩
  | .hbm, ⟨28, _⟩ => ⟨S32x256x64x64, .f32⟩
  | .local _ .vmem, ⟨0, _⟩ => ⟨S1x66x66x128, .f32⟩
  | .local _ .vmem, ⟨1, _⟩ => ⟨S1x66x66x128, .f32⟩
  | .local _ .vmem, ⟨2, _⟩ => ⟨S1152x256, .f32⟩
  | .local _ .vmem, ⟨3, _⟩ => ⟨S1x8x64x256, .f32⟩
  | .local _ .vmem, ⟨4, _⟩ => ⟨S1x8x64x256, .f32⟩
  | _, _ => ⟨S32x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c8_i32 : BitVec 32 := 8#32
  let v0 : BitVec 32 := Scalar.muli arg1 c8_i32
  v0
def k0_off1 (i : grid0.Coords) : Fin 4 → Nat :=
  let c0 : Index := 0#32
  let arg1 : BitVec 32 := BitVec.ofNat 32 (i 1).val
  let c8_i32 : BitVec 32 := 8#32
  let v0 : BitVec 32 := Scalar.muli arg1 c8_i32
  let v1 : BitVec 32 := v0
  let v2 : Index := Scalar.indexCast v1
  let c0_0 : Index := 0#32
  let c0_1 : Index := 0#32
  ![0, v2.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x66x66x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1152x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S256x128x3x3_S256_d1_2_3 : S256x128x3x3.ReducesTo [1, 2, 3] S256
  h_S_ : 0 < S_.numel
  bcast_S256_S256x1x1x1_0 : S256.BroadcastsInDim S256x1x1x1 (![0] : Fin 1 → Fin S256x1x1x1.rank)
  bcast_S_S256x1x1x1 : S_.BroadcastsInDim S256x1x1x1 (![] : Fin 0 → Fin S256x1x1x1.rank)
  bcast_S256x1x1x1_S256x128x3x3_0_1_2_3 : S256x1x1x1.BroadcastsInDim S256x128x3x3 (![0, 1, 2, 3] : Fin 4 → Fin S256x128x3x3.rank)
  bcast_S_S256x128x3x3 : S_.BroadcastsInDim S256x128x3x3 (![] : Fin 0 → Fin S256x128x3x3.rank)
  transposes_S256x128x3x3_S3x3x128x256_2_3_1_0 : S256x128x3x3.Transposes [2, 3, 1, 0] S3x3x128x256
  shapeCasts_S3x3x128x256_S1152x256 : S3x3x128x256.ShapeCasts S1152x256
  pads_S1152x256_S1152x256_000_000 : S1152x256.Pads (![0, 0] : Fin 2 → Nat) ![0, 0] ![0, 0] S1152x256
  transposes_S32x128x64x64_S32x64x64x128_0_2_3_1 : S32x128x64x64.Transposes [0, 2, 3, 1] S32x64x64x128
  pads_S32x64x64x128_S32x66x66x128_000_110_110_000 : S32x64x64x128.Pads (![0, 1, 1, 0] : Fin 4 → Nat) ![0, 1, 1, 0] ![0, 0, 0, 0] S32x66x66x128
  h_S1x10x66x128 : 0 < S1x10x66x128.numel
  shapeCasts_S1x10x66x128_S10x66x128 : S1x10x66x128.ShapeCasts S10x66x128
  slices_S10x66x128_o0_0_0_S8x66x128 : S10x66x128.Slices ![0, 0, 0] S8x66x128
  slices_S8x66x128_o0_0_0_S8x64x128 : S8x66x128.Slices ![0, 0, 0] S8x64x128
  slices_S8x66x128_o0_1_0_S8x64x128 : S8x66x128.Slices ![0, 1, 0] S8x64x128
  slices_S8x66x128_o0_2_0_S8x64x128 : S8x66x128.Slices ![0, 2, 0] S8x64x128
  slices_S10x66x128_o1_0_0_S8x66x128 : S10x66x128.Slices ![1, 0, 0] S8x66x128
  slices_S10x66x128_o2_0_0_S8x66x128 : S10x66x128.Slices ![2, 0, 0] S8x66x128
  concatenates_S8x64x128_S8x64x128_S8x64x128_S8x64x128_S8x64x128_S8x64x128_S8x64x128_S8x64x128_S8x64x128_S8x64x1152_d2 : Shape.Concatenates [S8x64x128, S8x64x128, S8x64x128, S8x64x128, S8x64x128, S8x64x128, S8x64x128, S8x64x128, S8x64x128] S8x64x1152 2
  shapeCasts_S8x64x1152_S512x1152 : S8x64x1152.ShapeCasts S512x1152
  inb_S1152x256_S1152x256_0_0 : ∀ a, (![0, 0] : Fin 2 → Nat) a + S1152x256.size a ≤ S1152x256.size a
  h_S1152x256 : 0 < S1152x256.numel
  shapeCasts_S1152x256_S1152x256 : S1152x256.ShapeCasts S1152x256
  shapeCasts_S512x256_S1x8x64x256 : S512x256.ShapeCasts S1x8x64x256
  inb_S1x8x64x256_S1x8x64x256_0_0_0_0 : ∀ a, (![0, 0, 0, 0] : Fin 4 → Nat) a + S1x8x64x256.size a ≤ S1x8x64x256.size a
  h_S1x8x64x256 : 0 < S1x8x64x256.numel
  transposes_S32x64x64x256_S32x256x64x64_0_3_1_2 : S32x64x64x256.Transposes [0, 3, 1, 2] S32x256x64x64
  dot_S512x1152_S1152x256_S512x256_1_0_0_1_n_n_wf : DotDims.WF S512x1152 S1152x256 S512x256 [1] [0] [0] [1] [] []
  hrank0 : 0 < grid0.rank
  k0_mult1_dvd : ∀ i : grid0.Coords, 8 ∣ (k0_mult1 i).toNat
  k0_off1_inb : ∀ i : grid0.Coords, ∀ a, (k0_off1 i) a + S1x10x66x128.size a ≤ S1x66x66x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x66x66x128.size a ≤ S32x66x66x128.size a
  hwx0_0 : ∀ i : grid0.Coords, EltTy.bits .f32 = 32 ∨ (Rect.block (s := S32x66x66x128) S1x66x66x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x256.size a ≤ S1152x256.size a
  hwx0_1 : ∀ i : grid0.Coords, EltTy.bits .f32 = 32 ∨ (Rect.block (s := S1152x256) S1152x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x64x256.size a ≤ S32x64x64x256.size a
  hwx0_2 : ∀ i : grid0.Coords, EltTy.bits .f32 = 32 ∨ (Rect.block (s := S32x64x64x256) S1x8x64x256.size (cc0_transform_2 i) (hinb0_2 i)).WholeWords (EltTy.packing .f32)

variable [Facts₀]

def dot_S512x1152_S1152x256_S512x256_1_0_0_1_n_n : DotDims S512x1152 S1152x256 S512x256 where
  lhsContracting := [1]
  rhsContracting := [0]
  lhsNonContracting := [0]
  rhsNonContracting := [1]
  lhsBatch := []
  rhsBatch := []
  wf := dot_S512x1152_S1152x256_S512x256_1_0_0_1_n_n_wf

abbrev win0_0 : Pipeline.Window sig grid0 :=
  Pipeline.Window.ofSpec (Memref.whole main_v16) S1x66x66x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1152x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x8x64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.ConvSpec.lean ====
/-
  The convolution both programs compute, as one function on the extended reals, and the two re-indexings of its sum.

  X is the zero-padded image in [batch, row, column, channel] order, 32 × 66 × 66 × 128; W the filter in
  [out-channel, in-channel, row tap, column tap] order, 256 × 128 × 3 × 3. The output entry (b, h, w, co) is the
  sum over the nine taps (dy, dx) and the 128 input channels ci of X(b, h + dy, w + dx, ci) · W(co, ci, dy, dx).
  Addition on the extended reals is commutative and associative, so the sum may be taken in any order and any
  grouping: as three sums over (dy, ci) flattened to 384 terms, one per column tap, added up; or as one sum over
  (dy, dx, ci) flattened to 1152 terms.
-/
import Mathlib.Algebra.BigOperators.Fin
import Mathlib.Data.EReal.Basic
import Idealize.ShloMosaic.Lib.ValueIdx

noncomputable section

namespace Cert.ConvSpec

open Idealize.ShloMosaic Idealize.ShloMosaic.ValueIdx

abbrev SX : Shape := ⟨4, ![32, 66, 66, 128]⟩
abbrev SW : Shape := ⟨4, ![256, 128, 3, 3]⟩
abbrev SO : Shape := ⟨4, ![32, 64, 64, 256]⟩

/-- Output row (or column) h read through tap d sits at padded row (column) h + d. -/
abbrev sh (h : Fin 64) (d : Fin 3) : Fin 66 := ⟨h.val + d.val, by have := h.isLt; have := d.isLt; omega⟩

/-- The convolution at one output entry. -/
def convAt (X : SX.Idx → EReal) (W : SW.Idx → EReal) (b : Fin 32) (h w : Fin 64) (co : Fin 256) : EReal :=
  ∑ dy : Fin 3, ∑ dx : Fin 3, ∑ ci : Fin 128, X (ix4 b (sh h dy) (sh w dx) ci) * W (ix4 co ci dy dx)

/-- The convolution as an array in [batch, row, column, out-channel] order. -/
def conv (X : SX.Idx → EReal) (W : SW.Idx → EReal) : SO.Idx → EReal :=
  fun j => convAt X W (j 0) (j 1) (j 2) (j 3)

theorem conv_apply (X : SX.Idx → EReal) (W : SW.Idx → EReal) (b : Fin 32) (h w : Fin 64) (co : Fin 256) :
    conv X W (ix4 b h w co) = convAt X W b h w co := rfl

/-! ## 384 = 3 · 128: a flat index is (row tap, channel) -/

abbrev hi384 (k : Fin 384) : Fin 3 := ⟨k.val / 128, by have := k.isLt; omega⟩
abbrev lo384 (k : Fin 384) : Fin 128 := ⟨k.val % 128, by omega⟩

def split384 : Fin 384 ≃ Fin 3 × Fin 128 where
  toFun k := (hi384 k, lo384 k)
  invFun p := ⟨p.1.val * 128 + p.2.val, by have := p.1.isLt; have := p.2.isLt; omega⟩
  left_inv k := Fin.ext (by show k.val / 128 * 128 + k.val % 128 = k.val; omega)
  right_inv p := by
    have h1 := p.1.isLt
    have h2 := p.2.isLt
    refine Prod.ext (Fin.ext ?_) (Fin.ext ?_)
    · show (p.1.val * 128 + p.2.val) / 128 = p.1.val; omega
    · show (p.1.val * 128 + p.2.val) % 128 = p.2.val; omega

theorem sum_384 {M : Type*} [AddCommMonoid M] (g : Fin 3 → Fin 128 → M) :
    ∑ k : Fin 384, g (hi384 k) (lo384 k) = ∑ dy : Fin 3, ∑ ci : Fin 128, g dy ci := by
  rw [← Fintype.sum_prod_type']
  exact Fintype.sum_equiv split384 _ _ fun _ => rfl

/-! ## 1152 = 3 · 3 · 128: a flat index is (row tap, column tap, channel) -/

abbrev dy1152 (k : Fin 1152) : Fin 3 := ⟨k.val / 384, by have := k.isLt; omega⟩
abbrev dx1152 (k : Fin 1152) : Fin 3 := ⟨k.val / 128 % 3, by omega⟩
abbrev ci1152 (k : Fin 1152) : Fin 128 := ⟨k.val % 128, by omega⟩

def split1152 : Fin 1152 ≃ Fin 3 × Fin 3 × Fin 128 where
  toFun k := (dy1152 k, dx1152 k, ci1152 k)
  invFun p := ⟨(p.1.val * 3 + p.2.1.val) * 128 + p.2.2.val, by have := p.1.isLt; have := p.2.1.isLt; have := p.2.2.isLt; omega⟩
  left_inv k := Fin.ext (by show (k.val / 384 * 3 + k.val / 128 % 3) * 128 + k.val % 128 = k.val; omega)
  right_inv p := by
    have h1 := p.1.isLt
    have h2 := p.2.1.isLt
    have h3 := p.2.2.isLt
    refine Prod.ext (Fin.ext ?_) (Prod.ext (Fin.ext ?_) (Fin.ext ?_))
    · show ((p.1.val * 3 + p.2.1.val) * 128 + p.2.2.val) / 384 = p.1.val; omega
    · show ((p.1.val * 3 + p.2.1.val) * 128 + p.2.2.val) / 128 % 3 = p.2.1.val; omega
    · show ((p.1.val * 3 + p.2.1.val) * 128 + p.2.2.val) % 128 = p.2.2.val; omega

theorem sum_1152 {M : Type*} [AddCommMonoid M] (g : Fin 3 → Fin 3 → Fin 128 → M) :
    ∑ k : Fin 1152, g (dy1152 k) (dx1152 k) (ci1152 k) = ∑ dy : Fin 3, ∑ dx : Fin 3, ∑ ci : Fin 128, g dy dx ci := by
  have e : ∑ k : Fin 1152, g (dy1152 k) (dx1152 k) (ci1152 k) = ∑ p : Fin 3 × Fin 3 × Fin 128, g p.1 p.2.1 p.2.2 :=
    Fintype.sum_equiv split1152 _ _ fun _ => rfl
  rw [e, Fintype.sum_prod_type]
  refine Finset.sum_congr rfl fun dy _ => ?_
  rw [Fintype.sum_prod_type]

/-! ## The convolution in the two flattened orders -/

/-- Three sums of 384 terms, one per column tap, added in tap order. -/
theorem convAt_eq_three (X : SX.Idx → EReal) (W : SW.Idx → EReal) (b : Fin 32) (h w : Fin 64) (co : Fin 256) :
    (∑ k : Fin 384, X (ix4 b (sh h (hi384 k)) (sh w 0) (lo384 k)) * W (ix4 co (lo384 k) (hi384 k) 0))
      + (∑ k : Fin 384, X (ix4 b (sh h (hi384 k)) (sh w 1) (lo384 k)) * W (ix4 co (lo384 k) (hi384 k) 1))
      + (∑ k : Fin 384, X (ix4 b (sh h (hi384 k)) (sh w 2) (lo384 k)) * W (ix4 co (lo384 k) (hi384 k) 2))
    = convAt X W b h w co := by
  have e : ∀ dx : Fin 3, (∑ k : Fin 384, X (ix4 b (sh h (hi384 k)) (sh w dx) (lo384 k)) * W (ix4 co (lo384 k) (hi384 k) dx))
      = ∑ dy : Fin 3, ∑ ci : Fin 128, X (ix4 b (sh h dy) (sh w dx) ci) * W (ix4 co ci dy dx) :=
    fun dx => sum_384 fun dy ci => X (ix4 b (sh h dy) (sh w dx) ci) * W (ix4 co ci dy dx)
  rw [e 0, e 1, e 2, ← Fin.sum_univ_three fun dx : Fin 3 => ∑ dy : Fin 3, ∑ ci : Fin 128, X (ix4 b (sh h dy) (sh w dx) ci) * W (ix4 co ci dy dx)]
  unfold convAt
  exact Finset.sum_comm

/-- One sum of 1152 terms. -/
theorem convAt_eq_one (X : SX.Idx → EReal) (W : SW.Idx → EReal) (b : Fin 32) (h w : Fin 64) (co : Fin 256) :
    (∑ k : Fin 1152, X (ix4 b (sh h (dy1152 k)) (sh w (dx1152 k)) (ci1152 k)) * W (ix4 co (ci1152 k) (dy1152 k) (dx1152 k)))
    = convAt X W b h w co :=
  sum_1152 fun dy dx ci => X (ix4 b (sh h dy) (sh w dx) ci) * W (ix4 co ci dy dx)

end Cert.ConvSpec

end
-- ==== Proof.ConvLayout.lean ====
/-
  Reading an im2col patch matrix at an entry.

  A row window of a padded image, [10, 66, 128] (rows, columns, channels), is cut into shifted [8, 64, 128]
  slabs; slabs are laid side by side along the channel axis and the result is flattened to a matrix whose row
  index is (row, column) of the output tile and whose column index runs over (tap, channel). Entry
  (h·64 + w, k) of that matrix is the window's entry at row h + (row tap), column w + (column tap), channel
  k mod 128. Two arrangements are read here: three slabs for a fixed column tap (the column index is
  (row tap)·128 + channel), and nine slabs (the column index is ((row tap)·3 + column tap)·128 + channel).
-/
import Idealize.ShloMosaic.Lib.Pipeline.Value
import Idealize.ShloMosaic.Lib.ValueIdx

noncomputable section

namespace Cert.ConvLayout

open Idealize.ShloMosaic Idealize.ShloMosaic.ValueIdx

variable {α : Type}

abbrev Win : Shape := ⟨3, ![10, 66, 128]⟩
abbrev WinC : Shape := ⟨3, ![10, 64, 128]⟩
abbrev WinR : Shape := ⟨3, ![8, 66, 128]⟩
abbrev Slab : Shape := ⟨3, ![8, 64, 128]⟩
abbrev Slab3 : Shape := ⟨3, ![8, 64, 384]⟩
abbrev Slab9 : Shape := ⟨3, ![8, 64, 1152]⟩
abbrev Pat3 : Shape := ⟨2, ![512, 384]⟩
abbrev Pat9 : Shape := ⟨2, ![512, 1152]⟩

/-- A slab cut columns first, rows second: entry (h, w, ci) is the window's entry (h + dy, w + dx, ci). -/
theorem slab_cols_rows (v : Win.Idx → α) (dx dy : ℕ) (hs : Win.Slices ![0, dx, 0] WinC) (hd : WinC.Slices ![dy, 0, 0] Slab)
    (h : Fin 8) (w : Fin 64) (ci : Fin 128) (r : Fin 10) (c : Fin 66) (hr : r.val = h.val + dy) (hc : c.val = w.val + dx) :
    extractStridedSlice Slab ![dy, 0, 0] (extractStridedSlice WinC ![0, dx, 0] v hs) hd (ix3 h w ci) = v (ix3 r c ci) := by
  refine (extractStridedSlice_apply _ _ hd (ix3 h w ci) (ix3 r w ci) ?_).trans ?_
  · intro a
    match a with
    | ⟨0, _⟩ => show r.val = dy + h.val; omega
    | ⟨1, _⟩ => show w.val = 0 + w.val; omega
    | ⟨2, _⟩ => show ci.val = 0 + ci.val; omega
  · refine extractStridedSlice_apply _ _ hs (ix3 r w ci) (ix3 r c ci) ?_
    intro a
    match a with
    | ⟨0, _⟩ => show r.val = 0 + r.val; omega
    | ⟨1, _⟩ => show c.val = dx + w.val; omega
    | ⟨2, _⟩ => show ci.val = 0 + ci.val; omega

/-- A slab cut rows first, columns second: the same entry. -/
theorem slab_rows_cols (v : Win.Idx → α) (dx dy : ℕ) (hd : Win.Slices ![dy, 0, 0] WinR) (hs : WinR.Slices ![0, dx, 0] Slab)
    (h : Fin 8) (w : Fin 64) (ci : Fin 128) (r : Fin 10) (c : Fin 66) (hr : r.val = h.val + dy) (hc : c.val = w.val + dx) :
    extractStridedSlice Slab ![0, dx, 0] (extractStridedSlice WinR ![dy, 0, 0] v hd) hs (ix3 h w ci) = v (ix3 r c ci) := by
  refine (extractStridedSlice_apply _ _ hs (ix3 h w ci) (ix3 h c ci) ?_).trans ?_
  · intro a
    match a with
    | ⟨0, _⟩ => show h.val = 0 + h.val; omega
    | ⟨1, _⟩ => show c.val = dx + w.val; omega
    | ⟨2, _⟩ => show ci.val = 0 + ci.val; omega
  · refine extractStridedSlice_apply _ _ hd (ix3 h c ci) (ix3 r c ci) ?_
    intro a
    match a with
    | ⟨0, _⟩ => show r.val = dy + h.val; omega
    | ⟨1, _⟩ => show c.val = 0 + c.val; omega
    | ⟨2, _⟩ => show ci.val = 0 + ci.val; omega

/-- Three slabs side by side, flattened: entry (h·64 + w, k) is slab k / 128 at (h, w, k mod 128). -/
theorem pat3_apply (x0 x1 x2 : Slab.Idx → α) (hc : Shape.Concatenates [Slab, Slab, Slab] Slab3 2) (hsc : Slab3.ShapeCasts Pat3)
    (h : Fin 8) (w : Fin 64) (k : Fin 384) (p : Fin 512) (hp : p.val = h.val * 64 + w.val) (ci : Fin 128) (hci : ci.val = k.val % 128) :
    shapeCast Pat3 (concatenate Slab3 2 [⟨Slab, x0⟩, ⟨Slab, x1⟩, ⟨Slab, x2⟩] hc) hsc (ix2 p k)
      = (if k.val < 128 then x0 else if k.val < 256 then x1 else x2) (ix3 h w ci) := by
  refine (shapeCast_apply _ hsc (ix2 p k) (ix3 h w k) ?_).trans ?_
  · rw [Shape.rowMajor_val_three, Shape.rowMajor_val_two]
    show (h.val * 64 + w.val) * 384 + k.val = p.val * 384 + k.val
    rw [hp]
  have hk := k.isLt
  have hi : ∀ b : Fin Slab.rank, b.cast (rfl : Slab.rank = Slab3.rank) ≠ (2 : Fin Slab3.rank) →
      ((ix3 h w ci : Slab.Idx) b).val = ((ix3 h w k : Slab3.Idx) (b.cast rfl)).val := fun b hb => by
    match b with
    | ⟨0, _⟩ => rfl
    | ⟨1, _⟩ => rfl
    | ⟨2, _⟩ => exact absurd rfl hb
  by_cases h0 : k.val < 128
  · rw [if_pos h0]
    exact concatenate_apply_piece (t := Slab3) 2 [⟨Slab, x0⟩, ⟨Slab, x1⟩, ⟨Slab, x2⟩] hc (ix3 h w k) 0 (by show (0 : ℕ) < 3; omega) Slab x0 rfl rfl 0 rfl (ix3 h w ci) hi
      (by show 0 + ci.val = k.val; omega)
  · rw [if_neg h0]
    by_cases h1 : k.val < 256
    · rw [if_pos h1]
      exact concatenate_apply_piece (t := Slab3) 2 [⟨Slab, x0⟩, ⟨Slab, x1⟩, ⟨Slab, x2⟩] hc (ix3 h w k) 1 (by show (1 : ℕ) < 3; omega) Slab x1 rfl rfl 128 rfl (ix3 h w ci) hi
        (by show 128 + ci.val = k.val; omega)
    · rw [if_neg h1]
      exact concatenate_apply_piece (t := Slab3) 2 [⟨Slab, x0⟩, ⟨Slab, x1⟩, ⟨Slab, x2⟩] hc (ix3 h w k) 2 (by show (2 : ℕ) < 3; omega) Slab x2 rfl rfl 256 rfl (ix3 h w ci) hi
        (by show 256 + ci.val = k.val; omega)

/-- The three-slab patch matrix for column tap dx, read off the window: entry (h·64 + w, k) is the window's
    entry (h + k / 128, w + dx, k mod 128). -/
theorem pat3_window (v : Win.Idx → α) (dx : ℕ) (hs : Win.Slices ![0, dx, 0] WinC)
    (h0 : WinC.Slices ![0, 0, 0] Slab) (h1 : WinC.Slices ![1, 0, 0] Slab) (h2 : WinC.Slices ![2, 0, 0] Slab)
    (hc : Shape.Concatenates [Slab, Slab, Slab] Slab3 2) (hsc : Slab3.ShapeCasts Pat3)
    (h : Fin 8) (w : Fin 64) (k : Fin 384) (p : Fin 512) (hp : p.val = h.val * 64 + w.val)
    (r : Fin 10) (c : Fin 66) (ci : Fin 128) (hr : r.val = h.val + k.val / 128) (hcc : c.val = w.val + dx) (hci : ci.val = k.val % 128) :
    shapeCast Pat3 (concatenate Slab3 2
        [⟨Slab, extractStridedSlice Slab ![0, 0, 0] (extractStridedSlice WinC ![0, dx, 0] v hs) h0⟩,
         ⟨Slab, extractStridedSlice Slab ![1, 0, 0] (extractStridedSlice WinC ![0, dx, 0] v hs) h1⟩,
         ⟨Slab, extractStridedSlice Slab ![2, 0, 0] (extractStridedSlice WinC ![0, dx, 0] v hs) h2⟩] hc) hsc (ix2 p k)
      = v (ix3 r c ci) := by
  rw [pat3_apply _ _ _ hc hsc h w k p hp ci hci]
  have hk := k.isLt
  by_cases c0 : k.val < 128
  · rw [if_pos c0]; exact slab_cols_rows v dx 0 hs h0 h w ci r c (by omega) hcc
  · rw [if_neg c0]
    by_cases c1 : k.val < 256
    · rw [if_pos c1]; exact slab_cols_rows v dx 1 hs h1 h w ci r c (by omega) hcc
    · rw [if_neg c1]; exact slab_cols_rows v dx 2 hs h2 h w ci r c (by omega) hcc

/-- Nine slabs side by side, flattened: entry (h·64 + w, k) is slab k / 128 at (h, w, k mod 128); stated through what
    each slab holds there, so that the slabs themselves are found from the term it is applied to. -/
theorem pat9_apply (x0 x1 x2 x3 x4 x5 x6 x7 x8 : Slab.Idx → α)
    (hc : Shape.Concatenates [Slab, Slab, Slab, Slab, Slab, Slab, Slab, Slab, Slab] Slab9 2) (hsc : Slab9.ShapeCasts Pat9)
    (h : Fin 8) (w : Fin 64) (k : Fin 1152) (p : Fin 512) (hp : p.val = h.val * 64 + w.val) (ci : Fin 128) (hci : ci.val = k.val % 128) (y : α)
    (g0 : 0 ≤ k.val → k.val < 128 → x0 (ix3 h w ci) = y)
    (g1 : 128 ≤ k.val → k.val < 256 → x1 (ix3 h w ci) = y)
    (g2 : 256 ≤ k.val → k.val < 384 → x2 (ix3 h w ci) = y)
    (g3 : 384 ≤ k.val → k.val < 512 → x3 (ix3 h w ci) = y)
    (g4 : 512 ≤ k.val → k.val < 640 → x4 (ix3 h w ci) = y)
    (g5 : 640 ≤ k.val → k.val < 768 → x5 (ix3 h w ci) = y)
    (g6 : 768 ≤ k.val → k.val < 896 → x6 (ix3 h w ci) = y)
    (g7 : 896 ≤ k.val → k.val < 1024 → x7 (ix3 h w ci) = y)
    (g8 : 1024 ≤ k.val → k.val < 1152 → x8 (ix3 h w ci) = y)
    : shapeCast Pat9 (concatenate Slab9 2 [⟨Slab, x0⟩, ⟨Slab, x1⟩, ⟨Slab, x2⟩, ⟨Slab, x3⟩, ⟨Slab, x4⟩, ⟨Slab, x5⟩, ⟨Slab, x6⟩, ⟨Slab, x7⟩, ⟨Slab, x8⟩] hc) hsc (ix2 p k) = y := by
  refine (shapeCast_apply _ hsc (ix2 p k) (ix3 h w k) ?_).trans ?_
  · rw [Shape.rowMajor_val_three, Shape.rowMajor_val_two]
    show (h.val * 64 + w.val) * 1152 + k.val = p.val * 1152 + k.val
    rw [hp]
  have hk := k.isLt
  have hi : ∀ b : Fin Slab.rank, b.cast (rfl : Slab.rank = Slab9.rank) ≠ (2 : Fin Slab9.rank) →
      ((ix3 h w ci : Slab.Idx) b).val = ((ix3 h w k : Slab9.Idx) (b.cast rfl)).val := fun b hb => by
    match b with
    | ⟨0, _⟩ => rfl
    | ⟨1, _⟩ => rfl
    | ⟨2, _⟩ => exact absurd rfl hb
  by_cases c0 : k.val < 128
  · exact (concatenate_apply_piece (t := Slab9) 2 [⟨Slab, x0⟩, ⟨Slab, x1⟩, ⟨Slab, x2⟩, ⟨Slab, x3⟩, ⟨Slab, x4⟩, ⟨Slab, x5⟩, ⟨Slab, x6⟩, ⟨Slab, x7⟩, ⟨Slab, x8⟩] hc (ix3 h w k) 0 (by show (0 : ℕ) < 9; omega) Slab x0 rfl rfl 0 rfl (ix3 h w ci) hi
      (by show 0 + ci.val = k.val; omega)).trans (g0 (by omega) (by omega))
  by_cases c1 : k.val < 256
  · exact (concatenate_apply_piece (t := Slab9) 2 [⟨Slab, x0⟩, ⟨Slab, x1⟩, ⟨Slab, x2⟩, ⟨Slab, x3⟩, ⟨Slab, x4⟩, ⟨Slab, x5⟩, ⟨Slab, x6⟩, ⟨Slab, x7⟩, ⟨Slab, x8⟩] hc (ix3 h w k) 1 (by show (1 : ℕ) < 9; omega) Slab x1 rfl rfl 128 rfl (ix3 h w ci) hi
      (by show 128 + ci.val = k.val; omega)).trans (g1 (by omega) (by omega))
  by_cases c2 : k.val < 384
  · exact (concatenate_apply_piece (t := Slab9) 2 [⟨Slab, x0⟩, ⟨Slab, x1⟩, ⟨Slab, x2⟩, ⟨Slab, x3⟩, ⟨Slab, x4⟩, ⟨Slab, x5⟩, ⟨Slab, x6⟩, ⟨Slab, x7⟩, ⟨Slab, x8⟩] hc (ix3 h w k) 2 (by show (2 : ℕ) < 9; omega) Slab x2 rfl rfl 256 rfl (ix3 h w ci) hi
      (by show 256 + ci.val = k.val; omega)).trans (g2 (by omega) (by omega))
  by_cases c3 : k.val < 512
  · exact (concatenate_apply_piece (t := Slab9) 2 [⟨Slab, x0⟩, ⟨Slab, x1⟩, ⟨Slab, x2⟩, ⟨Slab, x3⟩, ⟨Slab, x4⟩, ⟨Slab, x5⟩, ⟨Slab, x6⟩, ⟨Slab, x7⟩, ⟨Slab, x8⟩] hc (ix3 h w k) 3 (by show (3 : ℕ) < 9; omega) Slab x3 rfl rfl 384 rfl (ix3 h w ci) hi
      (by show 384 + ci.val = k.val; omega)).trans (g3 (by omega) (by omega))
  by_cases c4 : k.val < 640
  · exact (concatenate_apply_piece (t := Slab9) 2 [⟨Slab, x0⟩, ⟨Slab, x1⟩, ⟨Slab, x2⟩, ⟨Slab, x3⟩, ⟨Slab, x4⟩, ⟨Slab, x5⟩, ⟨Slab, x6⟩, ⟨Slab, x7⟩, ⟨Slab, x8⟩] hc (ix3 h w k) 4 (by show (4 : ℕ) < 9; omega) Slab x4 rfl rfl 512 rfl (ix3 h w ci) hi
      (by show 512 + ci.val = k.val; omega)).trans (g4 (by omega) (by omega))
  by_cases c5 : k.val < 768
  · exact (concatenate_apply_piece (t := Slab9) 2 [⟨Slab, x0⟩, ⟨Slab, x1⟩, ⟨Slab, x2⟩, ⟨Slab, x3⟩, ⟨Slab, x4⟩, ⟨Slab, x5⟩, ⟨Slab, x6⟩, ⟨Slab, x7⟩, ⟨Slab, x8⟩] hc (ix3 h w k) 5 (by show (5 : ℕ) < 9; omega) Slab x5 rfl rfl 640 rfl (ix3 h w ci) hi
      (by show 640 + ci.val = k.val; omega)).trans (g5 (by omega) (by omega))
  by_cases c6 : k.val < 896
  · exact (concatenate_apply_piece (t := Slab9) 2 [⟨Slab, x0⟩, ⟨Slab, x1⟩, ⟨Slab, x2⟩, ⟨Slab, x3⟩, ⟨Slab, x4⟩, ⟨Slab, x5⟩, ⟨Slab, x6⟩, ⟨Slab, x7⟩, ⟨Slab, x8⟩] hc (ix3 h w k) 6 (by show (6 : ℕ) < 9; omega) Slab x6 rfl rfl 768 rfl (ix3 h w ci) hi
      (by show 768 + ci.val = k.val; omega)).trans (g6 (by omega) (by omega))
  by_cases c7 : k.val < 1024
  · exact (concatenate_apply_piece (t := Slab9) 2 [⟨Slab, x0⟩, ⟨Slab, x1⟩, ⟨Slab, x2⟩, ⟨Slab, x3⟩, ⟨Slab, x4⟩, ⟨Slab, x5⟩, ⟨Slab, x6⟩, ⟨Slab, x7⟩, ⟨Slab, x8⟩] hc (ix3 h w k) 7 (by show (7 : ℕ) < 9; omega) Slab x7 rfl rfl 896 rfl (ix3 h w ci) hi
      (by show 896 + ci.val = k.val; omega)).trans (g7 (by omega) (by omega))
  exact (concatenate_apply_piece (t := Slab9) 2 [⟨Slab, x0⟩, ⟨Slab, x1⟩, ⟨Slab, x2⟩, ⟨Slab, x3⟩, ⟨Slab, x4⟩, ⟨Slab, x5⟩, ⟨Slab, x6⟩, ⟨Slab, x7⟩, ⟨Slab, x8⟩] hc (ix3 h w k) 8 (by show (8 : ℕ) < 9; omega) Slab x8 rfl rfl 1024 rfl (ix3 h w ci) hi
      (by show 1024 + ci.val = k.val; omega)).trans (g8 (by omega) (by omega))

/-- The nine-slab patch matrix, read off the window: entry (h·64 + w, k) is the window's entry
    (h + k / 384, w + (k / 128) mod 3, k mod 128). -/
theorem pat9_window (v : Win.Idx → α)
    (hd0 : Win.Slices ![0, 0, 0] WinR) (hd1 : Win.Slices ![1, 0, 0] WinR) (hd2 : Win.Slices ![2, 0, 0] WinR)
    (hs0 : WinR.Slices ![0, 0, 0] Slab) (hs1 : WinR.Slices ![0, 1, 0] Slab) (hs2 : WinR.Slices ![0, 2, 0] Slab)
    (hc : Shape.Concatenates [Slab, Slab, Slab, Slab, Slab, Slab, Slab, Slab, Slab] Slab9 2) (hsc : Slab9.ShapeCasts Pat9)
    (h : Fin 8) (w : Fin 64) (k : Fin 1152) (p : Fin 512) (hp : p.val = h.val * 64 + w.val)
    (r : Fin 10) (c : Fin 66) (ci : Fin 128) (hr : r.val = h.val + k.val / 384) (hcc : c.val = w.val + k.val / 128 % 3) (hci : ci.val = k.val % 128) :
    shapeCast Pat9 (concatenate Slab9 2
        [⟨Slab, extractStridedSlice Slab ![0, 0, 0] (extractStridedSlice WinR ![0, 0, 0] v hd0) hs0⟩,
         ⟨Slab, extractStridedSlice Slab ![0, 1, 0] (extractStridedSlice WinR ![0, 0, 0] v hd0) hs1⟩,
         ⟨Slab, extractStridedSlice Slab ![0, 2, 0] (extractStridedSlice WinR ![0, 0, 0] v hd0) hs2⟩,
         ⟨Slab, extractStridedSlice Slab ![0, 0, 0] (extractStridedSlice WinR ![1, 0, 0] v hd1) hs0⟩,
         ⟨Slab, extractStridedSlice Slab ![0, 1, 0] (extractStridedSlice WinR ![1, 0, 0] v hd1) hs1⟩,
         ⟨Slab, extractStridedSlice Slab ![0, 2, 0] (extractStridedSlice WinR ![1, 0, 0] v hd1) hs2⟩,
         ⟨Slab, extractStridedSlice Slab ![0, 0, 0] (extractStridedSlice WinR ![2, 0, 0] v hd2) hs0⟩,
         ⟨Slab, extractStridedSlice Slab ![0, 1, 0] (extractStridedSlice WinR ![2, 0, 0] v hd2) hs1⟩,
         ⟨Slab, extractStridedSlice Slab ![0, 2, 0] (extractStridedSlice WinR ![2, 0, 0] v hd2) hs2⟩] hc) hsc (ix2 p k)
      = v (ix3 r c ci) :=
  pat9_apply _ _ _ _ _ _ _ _ _ hc hsc h w k p hp ci hci (v (ix3 r c ci))
    (fun _ _ => slab_rows_cols v 0 0 hd0 hs0 h w ci r c (by omega) (by omega))
    (fun _ _ => slab_rows_cols v 1 0 hd0 hs1 h w ci r c (by omega) (by omega))
    (fun _ _ => slab_rows_cols v 2 0 hd0 hs2 h w ci r c (by omega) (by omega))
    (fun _ _ => slab_rows_cols v 0 1 hd1 hs0 h w ci r c (by omega) (by omega))
    (fun _ _ => slab_rows_cols v 1 1 hd1 hs1 h w ci r c (by omega) (by omega))
    (fun _ _ => slab_rows_cols v 2 1 hd1 hs2 h w ci r c (by omega) (by omega))
    (fun _ _ => slab_rows_cols v 0 2 hd2 hs0 h w ci r c (by omega) (by omega))
    (fun _ _ => slab_rows_cols v 1 2 hd2 hs1 h w ci r c (by omega) (by omega))
    (fun _ _ => slab_rows_cols v 2 2 hd2 hs2 h w ci r c (by omega) (by omega))

end Cert.ConvLayout

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.KernelValue.lean ====
/-
  What the kernel's program leaves in its result array, on the extended reals.
-/
import proofs.«153398_g2000206331192017_pallasbulk_745_6_alg».proof.Proof.Gen.KernelIdeal.Frame
import proofs.«153398_g2000206331192017_pallasbulk_745_6_alg».proof.Proof.ConvSpec
import proofs.«153398_g2000206331192017_pallasbulk_745_6_alg».proof.Proof.ConvLayout
import proofs.«153398_g2000206331192017_pallasbulk_745_6_alg».proof.Proof.LibPlainDot
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ConvValue

open Cert.KernelIdeal Cert.KernelIdeal.Gen Cert.ConvSpec

/-! ## The body's arithmetic at one entry of the output tile -/

theorem plain : PlainDot.IsPlain dot_S512x384_S384x256_S512x256_1_0_0_1_n_n := ⟨rfl, rfl, rfl, rfl, rfl, rfl⟩

/-- Row h of the tile read through row tap d: row h + d of the ten-row window. -/
abbrev wrow (h : Fin 8) (d : Fin 3) : Fin 10 := ⟨h.val + d.val, by have := h.isLt; have := d.isLt; omega⟩
/-- Tile entry (h, w) as a row of the patch matrix. -/
abbrev prow (h : Fin 8) (w : Fin 64) : Fin 512 := ⟨h.val * 64 + w.val, by have := h.isLt; have := w.isLt; omega⟩

/-- One column tap's product: the 384-term sum over (row tap, channel). -/
theorem tap_apply (v3 : FVec Ideal S1x10x66x128 .bf16) (wt : FVec Ideal S1x384x256 .bf16) (dx : Fin 3)
    (hs : S10x66x128.Slices ![0, dx.val, 0] S10x64x128) (h : Fin 8) (w : Fin 64) (co : Fin 256) :
    matmul dot_S512x384_S384x256_S512x256_1_0_0_1_n_n none
      (shapeCast S512x384 (concatenate S8x64x384 2
        [⟨S8x64x128, extractStridedSlice S8x64x128 ![0, 0, 0] (extractStridedSlice S10x64x128 ![0, dx.val, 0] (shapeCast S10x66x128 v3 shapeCasts_S1x10x66x128_S10x66x128) hs) slices_S10x64x128_o0_0_0_S8x64x128⟩,
         ⟨S8x64x128, extractStridedSlice S8x64x128 ![1, 0, 0] (extractStridedSlice S10x64x128 ![0, dx.val, 0] (shapeCast S10x66x128 v3 shapeCasts_S1x10x66x128_S10x66x128) hs) slices_S10x64x128_o1_0_0_S8x64x128⟩,
         ⟨S8x64x128, extractStridedSlice S8x64x128 ![2, 0, 0] (extractStridedSlice S10x64x128 ![0, dx.val, 0] (shapeCast S10x66x128 v3 shapeCasts_S1x10x66x128_S10x66x128) hs) slices_S10x64x128_o2_0_0_S8x64x128⟩]
        concatenates_S8x64x128_S8x64x128_S8x64x128_S8x64x384_d2) shapeCasts_S8x64x384_S512x384)
      (shapeCast S384x256 wt shapeCasts_S1x384x256_S384x256)
      (constant S512x256 .f32 0x00000000#32) (ix2 (prow h w) co)
    = ∑ k : Fin 384, v3 (ix4 0 (wrow h (hi384 k)) (sh w dx) (lo384 k)) * wt (ix3 0 k co) := by
  refine (PlainDot.matmul_zero_apply plain none _ _ (prow h w) co).trans ?_
  refine Finset.sum_congr rfl fun k _ => ?_
  refine congrArg₂ (· * ·) ?_ ?_
  · refine (Cert.ConvLayout.pat3_window _ dx.val hs _ _ _ _ _ h w k (prow h w) rfl (wrow h (hi384 k)) (sh w dx) (lo384 k) rfl rfl rfl).trans ?_
    exact shapeCast_1abc_abc_apply v3 _ _ _ _
  · exact shapeCast_1ab_ab_apply wt _ k co

/-- The tile the body stores, at entry (h, w, co): the three column taps' sums, added in tap order. -/
theorem pay_apply (v3 : FVec Ideal S1x10x66x128 .bf16) (v11 v20 v30 : FVec Ideal S1x384x256 .bf16)
    (h : Fin 8) (w : Fin 64) (co : Fin 256) :
    k0_pay1 (F := Ideal) v3 v11 v20 v30 (ix4 0 h w co)
      = (∑ k : Fin 384, v3 (ix4 0 (wrow h (hi384 k)) (sh w 0) (lo384 k)) * v11 (ix3 0 k co))
        + (∑ k : Fin 384, v3 (ix4 0 (wrow h (hi384 k)) (sh w 1) (lo384 k)) * v20 (ix3 0 k co))
        + (∑ k : Fin 384, v3 (ix4 0 (wrow h (hi384 k)) (sh w 2) (lo384 k)) * v30 (ix3 0 k co)) := by
  unfold k0_pay1
  refine (shapeCast_abc_1abc_apply _ _ 0 h w co).trans ?_
  refine (shapeCast_apply _ _ (ix3 h w co) (ix2 (prow h w) co) ?_).trans ?_
  · rw [Shape.rowMajor_val_two, Shape.rowMajor_val_three]
    show (h.val * 64 + w.val) * 256 + co.val = (h.val * 64 + w.val) * 256 + co.val
    rfl
  refine congrArg₂ (· + ·) (congrArg₂ (· + ·) ?_ ?_) ?_
  · exact tap_apply v3 v11 0 _ h w co
  · exact tap_apply v3 v20 1 _ h w co
  · exact tap_apply v3 v30 2 _ h w co

/-! ## What one grid point leaves in the output's staging buffer -/

variable {F : FTy → Type} [FloatOps F]

theorem hz4 : (![0, 0, 0, 0] : Fin 4 → Nat) = fun _ => 0 := funext fun a => by fin_cases a <;> rfl

/-- The body's one store covers the output's staging buffer, so the buffer ends at the stored tile: the body's
    arithmetic of what it loaded, rows 8·t₁ … 8·t₁ + 9 of the image block and the three column taps' weight slabs. -/
theorem out_A (c : Dev nD) (i : grid0.Coords) (a2 : Memref sig .tc .vmem S1x66x66x128 .bf16) (h2 : a2.IsWhole)
    (a3 : Memref sig .tc .vmem S3x384x256 .bf16) (h3 : a3.IsWhole) (a4 : Memref sig .tc .vmem S1x8x64x256 .f32) (h4 : a4.IsWhole)
    (x0 : Vec F S1x66x66x128 .bf16) (x1 : Vec F S3x384x256 .bf16) :
    out0_A_2 c i a2 h2 a3 h3 a4 h4 x0 x1
      = k0_pay1 (View.ld x0 (Rect.unit (s := S1x66x66x128) (k0_off1 i) S1x10x66x128.size (k0_off1_inb i)))
          (View.ld x1 (Rect.unit (s := S3x384x256) ![0, 0, 0] S1x384x256.size inb_S3x384x256_S1x384x256_0_0_0))
          (View.ld x1 (Rect.unit (s := S3x384x256) ![1, 0, 0] S1x384x256.size inb_S3x384x256_S1x384x256_1_0_0))
          (View.ld x1 (Rect.unit (s := S3x384x256) ![2, 0, 0] S1x384x256.size inb_S3x384x256_S1x384x256_2_0_0)) := by
  unfold out0_A_2
  rw [View.read_writes_eq_canon _ _ _ (cover0_A_2 c i a2 h2 a3 h3 a4 h4 x0 x1)]
  unfold kernelRun0_A
  dsimp only
  rw [View.canon_unit_zero hz4]
  sl_unfold_run_names
  simp only [View.readAt_eq_ld, h2.read_unread, h3.read_unread]

/-! ## The blocks a grid point works on, as entries of the arrays the region finds -/

variable (m : (ℓ : Loc nD τ sig) → Buf (Elt Ideal) ℓ) (ρ : Dev nD → PrngReg)

/-- The padded image and the weight cube as the region finds them, and a point's blocks of them. -/
abbrev xarr (c : Dev nD) : Vec Ideal S32x66x66x128 .bf16 := V m c main_v17
abbrev warr (c : Dev nD) : Vec Ideal S3x384x256 .bf16 := V m c main_v14
abbrev xblk (c : Dev nD) (t : Fin cfg0.N) : Vec Ideal S1x66x66x128 .bf16 := iblk m c 0 t
abbrev wblk (c : Dev nD) (t : Fin cfg0.N) : Vec Ideal S3x384x256 .bf16 := iblk m c 1 t

/-- The printed index maps over the 32 × 8 grid: point t is image t / 8, row tile t mod 8. The image window holds
    image t / 8 whole, the weight window the whole cube, the output window rows 8·(t mod 8) … + 7 of image t / 8. -/
theorem idx_facts : ∀ t : Fin cfg0.N,
    win0_0.index t (0 : Fin 4) = t.val / 8 ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 4) = t.val / 8 ∧ win0_2.index t (1 : Fin 4) = t.val % 8 ∧ win0_2.index t (2 : Fin 4) = 0 ∧ win0_2.index t (3 : Fin 4) = 0
    ∧ (grid0.coords t 1).val = t.val % 8 :=
  (by decide +kernel : ∀ t : Fin grid0.N, _)

theorem xblk_apply (c : Dev nD) (t : Fin cfg0.N) (r cc : Fin 66) (ci : Fin 128) (b : Fin 32) (hb : b.val = t.val / 8) :
    xblk m c t (ix4 0 r cc ci) = xarr m c (ix4 b r cc ci) := by
  obtain ⟨e0, e1, e2, e3, -⟩ := idx_facts t
  show ((cfg0.win 0).blk t).view.read (Elt Ideal) (V m c (Pipeline.arrRef spec0 0)) (ix4 0 r cc ci) = V m c main_v17 (ix4 b r cc ci)
  rw [View.read_apply]
  show V m c main_v17 (((cfg0.win 0).blk t).view.emb (ix4 0 r cc ci)) = V m c main_v17 (ix4 b r cc ci)
  refine congrArg (V m c main_v17) ?_
  funext a
  apply Fin.ext
  match a with
  | ⟨0, _⟩ => show win0_0.index t (0 : Fin 4) * 1 + 1 * 0 = b.val; omega
  | ⟨1, _⟩ => show win0_0.index t (1 : Fin 4) * 66 + 1 * r.val = r.val; omega
  | ⟨2, _⟩ => show win0_0.index t (2 : Fin 4) * 66 + 1 * cc.val = cc.val; omega
  | ⟨3, _⟩ => show win0_0.index t (3 : Fin 4) * 128 + 1 * ci.val = ci.val; omega

theorem wblk_apply (c : Dev nD) (t : Fin cfg0.N) (dx : Fin 3) (k : Fin 384) (co : Fin 256) :
    wblk m c t (ix3 dx k co) = warr m c (ix3 dx k co) := by
  obtain ⟨-, -, -, -, e0, e1, e2, -⟩ := idx_facts t
  show ((cfg0.win 1).blk t).view.read (Elt Ideal) (V m c (Pipeline.arrRef spec0 1)) (ix3 dx k co) = V m c main_v14 (ix3 dx k co)
  rw [View.read_apply]
  show V m c main_v14 (((cfg0.win 1).blk t).view.emb (ix3 dx k co)) = V m c main_v14 (ix3 dx k co)
  refine congrArg (V m c main_v14) ?_
  funext a
  apply Fin.ext
  match a with
  | ⟨0, _⟩ => show win0_1.index t (0 : Fin 3) * 3 + 1 * dx.val = dx.val; omega
  | ⟨1, _⟩ => show win0_1.index t (1 : Fin 3) * 384 + 1 * k.val = k.val; omega
  | ⟨2, _⟩ => show win0_1.index t (2 : Fin 3) * 256 + 1 * co.val = co.val; omega

/-- The body's load of ten rows of the image block, from row 8·(t mod 8) on. -/
theorem ldx_apply (c : Dev nD) (t : Fin cfg0.N) (r : Fin 10) (cc : Fin 66) (ci : Fin 128) (b : Fin 32) (hb : b.val = t.val / 8)
    (R : Fin 66) (hR : R.val = 8 * (t.val % 8) + r.val) :
    View.ld (xblk m c t) (Rect.unit (s := S1x66x66x128) (k0_off1 (grid0.coords t)) S1x10x66x128.size (k0_off1_inb (grid0.coords t))) (ix4 0 r cc ci)
      = xarr m c (ix4 b R cc ci) := by
  obtain ⟨-, -, -, -, -, -, -, -, -, -, -, eg⟩ := idx_facts t
  have e : (Rect.unit (s := S1x66x66x128) (k0_off1 (grid0.coords t)) S1x10x66x128.size (k0_off1_inb (grid0.coords t))).idx (ix4 0 r cc ci)
      = ix4 0 R cc ci := by
    funext a
    apply Fin.ext
    match a with
    | ⟨0, _⟩ => show k0_off1 (grid0.coords t) 0 + 1 * 0 = 0; rw [k0_off1_eq]; rfl
    | ⟨1, _⟩ => show k0_off1 (grid0.coords t) 1 + 1 * r.val = R.val; rw [k0_off1_eq]; show 8 * (grid0.coords t 1).val + 1 * r.val = R.val; omega
    | ⟨2, _⟩ => show k0_off1 (grid0.coords t) 2 + 1 * cc.val = cc.val; rw [k0_off1_eq]; show 0 + 1 * cc.val = cc.val; omega
    | ⟨3, _⟩ => show k0_off1 (grid0.coords t) 3 + 1 * ci.val = ci.val; rw [k0_off1_eq]; show 0 + 1 * ci.val = ci.val; omega
  show xblk m c t ((Rect.unit (s := S1x66x66x128) (k0_off1 (grid0.coords t)) S1x10x66x128.size (k0_off1_inb (grid0.coords t))).idx (ix4 0 r cc ci)) = _
  rw [e]
  exact xblk_apply m c t R cc ci b hb

/-- The body's load of column tap dx's slab of the weight block. -/
theorem ldw_apply (c : Dev nD) (t : Fin cfg0.N) (dx : Fin 3) (inb : ∀ a, (![dx.val, 0, 0] : Fin 3 → Nat) a + S1x384x256.size a ≤ S3x384x256.size a)
    (k : Fin 384) (co : Fin 256) :
    View.ld (wblk m c t) (Rect.unit (s := S3x384x256) ![dx.val, 0, 0] S1x384x256.size inb) (ix3 0 k co) = warr m c (ix3 dx k co) := by
  have e : (Rect.unit (s := S3x384x256) ![dx.val, 0, 0] S1x384x256.size inb).idx (ix3 0 k co) = ix3 dx k co := by
    funext a
    apply Fin.ext
    match a with
    | ⟨0, _⟩ => show dx.val + 1 * 0 = dx.val; omega
    | ⟨1, _⟩ => show 0 + 1 * k.val = k.val; omega
    | ⟨2, _⟩ => show 0 + 1 * co.val = co.val; omega
  show wblk m c t ((Rect.unit (s := S3x384x256) ![dx.val, 0, 0] S1x384x256.size inb).idx (ix3 0 k co)) = _
  rw [e]
  exact wblk_apply m c t dx k co

/-! ## The result array as one function of the two arrays the region finds -/

/-- The convolution in the kernel's own arrangement: X the padded image, Wk the weight cube [column tap, (row tap, channel),
    out-channel]; per column tap a 384-term sum, the three added in tap order. -/
def G (X : Vec Ideal S32x66x66x128 .bf16) (Wk : Vec Ideal S3x384x256 .bf16) : Vec Ideal S32x64x64x256 .f32 := fun j =>
  (∑ k : Fin 384, X (ix4 (j 0) (sh (j 1) (hi384 k)) (sh (j 2) 0) (lo384 k)) * Wk (ix3 0 k (j 3)))
    + (∑ k : Fin 384, X (ix4 (j 0) (sh (j 1) (hi384 k)) (sh (j 2) 1) (lo384 k)) * Wk (ix3 1 k (j 3)))
    + (∑ k : Fin 384, X (ix4 (j 0) (sh (j 1) (hi384 k)) (sh (j 2) 2) (lo384 k)) * Wk (ix3 2 k (j 3)))

/-- The tile point t stores, entry by entry, is G's rows 8·(t mod 8) … + 7 of image t / 8. -/
theorem tile_eq (c : Dev nD) (t : Fin cfg0.N) (b : Fin 32) (hb : b.val = t.val / 8) (h : Fin 8) (H : Fin 64)
    (hH : H.val = 8 * (t.val % 8) + h.val) (w : Fin 64) (co : Fin 256) :
    k0_pay1 (F := Ideal)
        (View.ld (xblk m c t) (Rect.unit (s := S1x66x66x128) (k0_off1 (grid0.coords t)) S1x10x66x128.size (k0_off1_inb (grid0.coords t))))
        (View.ld (wblk m c t) (Rect.unit (s := S3x384x256) ![0, 0, 0] S1x384x256.size inb_S3x384x256_S1x384x256_0_0_0))
        (View.ld (wblk m c t) (Rect.unit (s := S3x384x256) ![1, 0, 0] S1x384x256.size inb_S3x384x256_S1x384x256_1_0_0))
        (View.ld (wblk m c t) (Rect.unit (s := S3x384x256) ![2, 0, 0] S1x384x256.size inb_S3x384x256_S1x384x256_2_0_0))
        (ix4 0 h w co)
      = G (xarr m c) (warr m c) (ix4 b H w co) := by
  rw [pay_apply]
  show _ = (∑ k : Fin 384, xarr m c (ix4 b (sh H (hi384 k)) (sh w 0) (lo384 k)) * warr m c (ix3 0 k co))
    + (∑ k : Fin 384, xarr m c (ix4 b (sh H (hi384 k)) (sh w 1) (lo384 k)) * warr m c (ix3 1 k co))
    + (∑ k : Fin 384, xarr m c (ix4 b (sh H (hi384 k)) (sh w 2) (lo384 k)) * warr m c (ix3 2 k co))
  have hx : ∀ (dx : Fin 3) (k : Fin 384), View.ld (xblk m c t) (Rect.unit (s := S1x66x66x128) (k0_off1 (grid0.coords t)) S1x10x66x128.size (k0_off1_inb (grid0.coords t))) (ix4 0 (wrow h (hi384 k)) (sh w dx) (lo384 k))
      = xarr m c (ix4 b (sh H (hi384 k)) (sh w dx) (lo384 k)) := fun dx k =>
    ldx_apply m c t (wrow h (hi384 k)) (sh w dx) (lo384 k) b hb (sh H (hi384 k)) (by show H.val + (hi384 k).val = 8 * (t.val % 8) + (h.val + (hi384 k).val); omega)
  refine congrArg₂ (· + ·) (congrArg₂ (· + ·) ?_ ?_) ?_
  · exact Finset.sum_congr rfl fun k _ => congrArg₂ (· * ·) (hx 0 k) (ldw_apply m c t 0 _ k co)
  · exact Finset.sum_congr rfl fun k _ => congrArg₂ (· * ·) (hx 1 k) (ldw_apply m c t 1 _ k co)
  · exact Finset.sum_congr rfl fun k _ => congrArg₂ (· * ·) (hx 2 k) (ldw_apply m c t 2 _ k co)

/-- What point t writes back is block t of G of the two arrays. -/
theorem flushed_eq (c : Dev nD) (t : Fin cfg0.N) :
    (dats m 0 c).flushed 2 t = ((cfg0.win 2).blk t).view.read (Elt Ideal) (G (xarr m c) (warr m c)) := by
  obtain ⟨-, -, -, -, -, -, -, e0, e1, e2, e3, -⟩ := idx_facts t
  have ht : t.val < 256 := by have := t.isLt; have hN : cfg0.N = 256 := N_0; omega
  show (cfg0.win 2).cut (grid0.coords t) ((dats m 0 c).after 2 t) = _
  rw [after0_2]
  unfold outsAt0
  rw [out_A]
  funext j
  have h0 : (j 0).val < 1 := (j 0).isLt
  have h1 : (j 1).val < 8 := (j 1).isLt
  have h2 : (j 2).val < 64 := (j 2).isLt
  have h3 : (j 3).val < 256 := (j 3).isLt
  rw [View.read_apply]
  have ej : (cfg0.win 2).xinj (grid0.coords t) j = ix4 (0 : Fin 1) (⟨(j 1).val, h1⟩ : Fin 8) (⟨(j 2).val, h2⟩ : Fin 64) (⟨(j 3).val, h3⟩ : Fin 256) := by
    funext a
    apply Fin.ext
    match a with
    | ⟨0, _⟩ => show (j 0).val = 0; omega
    | ⟨1, _⟩ => rfl
    | ⟨2, _⟩ => rfl
    | ⟨3, _⟩ => rfl
  have ee : ((cfg0.win 2).blk t).view.emb j
      = ix4 (⟨t.val / 8, by omega⟩ : Fin 32) (⟨8 * (t.val % 8) + (j 1).val, by omega⟩ : Fin 64) (⟨(j 2).val, h2⟩ : Fin 64) (⟨(j 3).val, h3⟩ : Fin 256) := by
    funext a
    apply Fin.ext
    match a with
    | ⟨0, _⟩ => show win0_2.index t (0 : Fin 4) * 1 + 1 * (j 0).val = t.val / 8; omega
    | ⟨1, _⟩ => show win0_2.index t (1 : Fin 4) * 8 + 1 * (j 1).val = 8 * (t.val % 8) + (j 1).val; omega
    | ⟨2, _⟩ => show win0_2.index t (2 : Fin 4) * 64 + 1 * (j 2).val = (j 2).val; omega
    | ⟨3, _⟩ => show win0_2.index t (3 : Fin 4) * 256 + 1 * (j 3).val = (j 3).val; omega
  unfold Pipeline.Window.cut
  rw [ej]
  refine (tile_eq m c t (⟨t.val / 8, by omega⟩ : Fin 32) rfl (⟨(j 1).val, h1⟩ : Fin 8) (⟨8 * (t.val % 8) + (j 1).val, by omega⟩ : Fin 64) rfl
    (⟨(j 2).val, h2⟩ : Fin 64) (⟨(j 3).val, h3⟩ : Fin 256)).trans ?_
  exact congrArg (G (xarr m c) (warr m c)) ee.symm

/-- An entry of the result array is in point t's block iff each coordinate is in the block's range on its axis. -/
theorem mem_blk (t : Fin cfg0.N) (i : S32x64x64x256.Idx) :
    i ∈ ((cfg0.win 2).blk t).view.set ↔ ∀ a : Fin 4, win0_2.index t a * S1x8x64x256.size a ≤ (i a).val
      ∧ (i a).val < win0_2.index t a * S1x8x64x256.size a + S1x8x64x256.size a := by
  show i ∈ ((View.whole main_v18).slice (win0_2.rect t)).set ↔ _
  rw [View.set_slice_whole, Rect.mem_set_unit]
  exact Iff.rfl

/-- The 256 tiles cover the result array (entry (b, h, ·, ·) is in point 8·b + h / 8's), so it ends at G. -/
theorem final (c : Dev nD) : (dats m 0 c).arrAt 2 cfg0.N = G (xarr m c) (warr m c) :=
  (dats m 0 c).arrAt_eq_of_cover 2 _ (fun t _ => flushed_eq m c t) fun i => by
    have hi0 : (i 0).val < 32 := (i 0).isLt
    have hi1 : (i 1).val < 64 := (i 1).isLt
    have hi2 : (i 2).val < 64 := (i 2).isLt
    have hi3 : (i 3).val < 256 := (i 3).isLt
    have hN : cfg0.N = 256 := N_0
    obtain ⟨t, ht⟩ : ∃ t : Fin cfg0.N, t.val = (i 0).val * 8 + (i 1).val / 8 := ⟨⟨(i 0).val * 8 + (i 1).val / 8, by omega⟩, rfl⟩
    obtain ⟨-, -, -, -, -, -, -, e0, e1, e2, e3, -⟩ := idx_facts t
    refine ⟨t, flush0_2 t, ?_⟩
    rw [mem_blk]
    intro a
    match a with
    | ⟨0, _⟩ => show win0_2.index t (0 : Fin 4) * 1 ≤ (i 0).val ∧ (i 0).val < win0_2.index t (0 : Fin 4) * 1 + 1; omega
    | ⟨1, _⟩ => show win0_2.index t (1 : Fin 4) * 8 ≤ (i 1).val ∧ (i 1).val < win0_2.index t (1 : Fin 4) * 8 + 8; omega
    | ⟨2, _⟩ => show win0_2.index t (2 : Fin 4) * 64 ≤ (i 2).val ∧ (i 2).val < win0_2.index t (2 : Fin 4) * 64 + 64; omega
    | ⟨3, _⟩ => show win0_2.index t (3 : Fin 4) * 256 ≤ (i 3).val ∧ (i 3).val < win0_2.index t (3 : Fin 4) * 256 + 256; omega

/-! ## The two arrays as functions of the arguments: the host operations before the region -/

/-- The filter normalised per output channel: w / (ε + ‖w_co‖ · s) · s, with s the program's literal for 1/√1152 and
    ε its literal for 1e-4, ‖·‖ the square root of the sum of squares over (ci, dy, dx). Carried whole; never opened. -/
def wn (w : FVec Ideal S256x128x3x3 .f32) : FVec Ideal S256x128x3x3 .f32 :=
  mulf
    (Host.divf (F := Ideal) w
      (broadcastInDim S256x128x3x3 ![0, 1, 2, 3] bcast_S256x1x1x1_S256x128x3x3_0_1_2_3
        (addf (broadcastInDim S256x1x1x1 ![] bcast_S_S256x1x1x1 (constant (F := Ideal) S_ .f32 0x38D1B717#32))
          (mulf
            (Host.sqrt (F := Ideal)
              (broadcastInDim S256x1x1x1 ![0] bcast_S256_S256x1x1x1_0
                (Host.reduceAdd (F := Ideal) (mulf w w) (constant (F := Ideal) S_ .f32 0x00000000#32) reducesTo_S256x128x3x3_S256_d1_2_3 h_S_)))
            (broadcastInDim S256x1x1x1 ![] bcast_S_S256x1x1x1 (constant (F := Ideal) S_ .f32 0x3CF15BEF#32))))))
    (broadcastInDim S256x128x3x3 ![] bcast_S_S256x128x3x3 (constant (F := Ideal) S_ .f32 0x3CF15BEF#32))

/-- The image moved to [batch, row, column, channel] order and framed by one ring of the padding value. -/
def xpad (x : FVec Ideal S32x128x64x64 .f32) : FVec Ideal S32x66x66x128 .bf16 :=
  pad S32x66x66x128 ![0, 1, 1, 0] ![0, 1, 1, 0] ![0, 0, 0, 0]
    (truncf (F := Ideal) .bf16 (transpose S32x64x64x128 [0, 2, 3, 1] x transposes_S32x128x64x64_S32x64x64x128_0_2_3_1) bitsLt_bf16_f32)
    (sitofp (F := Ideal) .bf16 (constantI S_ 32 0#32)) pads_S32x64x64x128_S32x66x66x128_000_110_110_000 h_S_

theorem warr_eq (c : Dev nD) : warr m c
    = truncf (F := Ideal) .bf16 (shapeCast S3x384x256 (transpose S3x3x128x256 [3, 2, 1, 0] (wn (m ((c : Thread nD τ).loc main_arg1)))
        transposes_S256x128x3x3_S3x3x128x256_3_2_1_0) shapeCasts_S3x3x128x256_S3x384x256) bitsLt_bf16_f32 := by
  unfold wn
  show (V m c main_v14 : Vec Ideal S3x384x256 .bf16) = _
  dsimp only [V, V0]
  simp only [hostOps0, hostOps0_1, List.flatten_cons, List.flatten_nil, List.append_nil, List.cons_append, List.nil_append]
  after_results
  rfl

theorem xarr_eq (c : Dev nD) : xarr m c = xpad (m ((c : Thread nD τ).loc main_arg0)) := by
  unfold xpad
  show (V m c main_v17 : Vec Ideal S32x66x66x128 .bf16) = _
  dsimp only [V, V0]
  simp only [hostOps0, hostOps0_1, List.flatten_cons, List.flatten_nil, List.append_nil, List.cons_append, List.nil_append]
  after_results
  rfl

/-- The weight cube's entry (dx, dy·128 + ci, co) is the normalised filter's entry (co, ci, dy, dx). -/
theorem warr_apply (c : Dev nD) (dx : Fin 3) (k : Fin 384) (co : Fin 256) :
    warr m c (ix3 dx k co) = wn (m ((c : Thread nD τ).loc main_arg1)) (ix4 co (lo384 k) (hi384 k) dx) := by
  rw [warr_eq]
  show shapeCast S3x384x256 (transpose S3x3x128x256 [3, 2, 1, 0] (wn (m ((c : Thread nD τ).loc main_arg1)))
      transposes_S256x128x3x3_S3x3x128x256_3_2_1_0) shapeCasts_S3x3x128x256_S3x384x256 (ix3 dx k co) = _
  refine (shapeCast_apply _ _ (ix3 dx k co) (ix4 dx (hi384 k) (lo384 k) co) ?_).trans ?_
  · rw [Shape.rowMajor_val_three, Shape.rowMajor_val_four]
    have hk := k.isLt
    show ((dx.val * 3 + k.val / 128) * 128 + k.val % 128) * 256 + co.val = (dx.val * 384 + k.val) * 256 + co.val
    omega
  · refine transpose_apply _ _ _ (ix4 dx (hi384 k) (lo384 k) co) (ix4 co (lo384 k) (hi384 k) dx) ?_
    intro b
    match b with
    | ⟨0, _⟩ => rfl
    | ⟨1, _⟩ => rfl
    | ⟨2, _⟩ => rfl
    | ⟨3, _⟩ => rfl

/-- So the result array is the convolution of the padded image with the normalised filter. -/
theorem G_eq_conv (c : Dev nD) :
    G (xarr m c) (warr m c) = conv (xpad (m ((c : Thread nD τ).loc main_arg0))) (wn (m ((c : Thread nD τ).loc main_arg1))) := by
  funext j
  obtain ⟨b, h, w, co, rfl⟩ : ∃ (b : Fin 32) (h w : Fin 64) (co : Fin 256), j = ix4 b h w co := ⟨j 0, j 1, j 2, j 3, eq_ix4 j⟩
  rw [conv_apply, ← convAt_eq_three, ← xarr_eq]
  show (∑ k : Fin 384, xarr m c (ix4 b (sh h (hi384 k)) (sh w 0) (lo384 k)) * warr m c (ix3 0 k co))
      + (∑ k : Fin 384, xarr m c (ix4 b (sh h (hi384 k)) (sh w 1) (lo384 k)) * warr m c (ix3 1 k co))
      + (∑ k : Fin 384, xarr m c (ix4 b (sh h (hi384 k)) (sh w 2) (lo384 k)) * warr m c (ix3 2 k co)) = _
  refine congrArg₂ (· + ·) (congrArg₂ (· + ·) ?_ ?_) ?_
  · exact Finset.sum_congr rfl fun k _ => congrArg₂ (· * ·) rfl (warr_apply m c 0 k co)
  · exact Finset.sum_congr rfl fun k _ => congrArg₂ (· * ·) rfl (warr_apply m c 1 k co)
  · exact Finset.sum_congr rfl fun k _ => congrArg₂ (· * ·) rfl (warr_apply m c 2 k co)

/-! ## The host operation after the region, and the run -/

theorem tail_eq (c : Dev nD) : Pipeline.afterTail₀ cfgs (dats m) 0 (V0 m) [hostOps1] c main_v19
    = transpose S32x256x64x64 [0, 3, 1, 2] ((dats m 0 c).arrAt 2 cfg0.N) transposes_S32x64x64x256_S32x256x64x64_0_3_1_2 := by
  unfold Pipeline.afterTail₀
  show StableHlo.after hostOps1 _ (Proc.devRef .tc main_v19) = _
  after_results
  exact congrArg (fun x => transpose S32x256x64x64 [0, 3, 1, 2] x transposes_S32x64x64x256_S32x256x64x64_0_3_1_2)
    (Pipeline.withArrays_arr spec0 launch0.win.arr_inj c _ _ 2)

/-- The kernel's program, run: the result is the convolution of the padded image with the normalised filter, moved to
    [batch, out-channel, row, column] order; the arguments are unchanged. -/
theorem run : θ_run defs (onTc (τ := τ) (main (F := Ideal))) ⟨m, fun _ => 0, ρ⟩ fun r => ∀ c : Dev nD,
      r.2.mem ((c : Thread nD τ).loc main_v19)
        = transpose S32x256x64x64 [0, 3, 1, 2]
            (conv (xpad (m ((c : Thread nD τ).loc main_arg0))) (wn (m ((c : Thread nD τ).loc main_arg1))))
            transposes_S32x64x64x256_S32x256x64x64_0_3_1_2
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v19 (Pipeline.mem_restRefs_of main_v19 (by decide) (by decide))).trans
        ((tail_eq m c).trans (by rw [final, G_eq_conv])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.ConvValue

end
-- ==== Proof.ReferenceValue.lean ====
/-
  What the reference's program leaves in its result array, on the extended reals.
-/
import proofs.«153398_g2000206331192017_pallasbulk_745_6_alg».proof.Proof.Gen.ReferenceIdeal.Frame
import proofs.«153398_g2000206331192017_pallasbulk_745_6_alg».proof.Proof.ConvSpec
import proofs.«153398_g2000206331192017_pallasbulk_745_6_alg».proof.Proof.ConvLayout
import proofs.«153398_g2000206331192017_pallasbulk_745_6_alg».proof.Proof.LibPlainDot
import Idealize.ShloMosaic.Lib.Pipeline.Value
import Idealize.ShloMosaic.Lib.ValueLayout
import Idealize.ShloMosaic.Lib.KernelVsHost
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.ConvValue

open Cert.ReferenceIdeal Cert.ReferenceIdeal.Gen Cert.ConvSpec

/-! ## The body's arithmetic at one entry of the output tile -/

theorem plain : PlainDot.IsPlain dot_S512x1152_S1152x256_S512x256_1_0_0_1_n_n := ⟨rfl, rfl, rfl, rfl, rfl, rfl⟩

/-- Row h of the tile read through row tap d: row h + d of the ten-row window. -/
abbrev wrow (h : Fin 8) (d : Fin 3) : Fin 10 := ⟨h.val + d.val, by have := h.isLt; have := d.isLt; omega⟩
/-- Tile entry (h, w) as a row of the patch matrix. -/
abbrev prow (h : Fin 8) (w : Fin 64) : Fin 512 := ⟨h.val * 64 + w.val, by have := h.isLt; have := w.isLt; omega⟩

/-- The tile the body stores, at entry (h, w, co): one 1152-term sum over (row tap, column tap, channel). -/
theorem pay_apply (v3 : FVec Ideal S1x10x66x128 .f32) (v19 : FVec Ideal S1152x256 .f32) (h : Fin 8) (w : Fin 64) (co : Fin 256) :
    k0_pay1 (F := Ideal) v3 v19 (ix4 0 h w co)
      = ∑ k : Fin 1152, v3 (ix4 0 (wrow h (dy1152 k)) (sh w (dx1152 k)) (ci1152 k)) * v19 (ix2 k co) := by
  unfold k0_pay1
  refine (shapeCast_apply _ _ (ix4 0 h w co) (ix2 (prow h w) co) ?_).trans ?_
  · rw [Shape.rowMajor_val_two, Shape.rowMajor_val_four]
    show (h.val * 64 + w.val) * 256 + co.val = (((0 : Fin 1).val * 8 + h.val) * 64 + w.val) * 256 + co.val
    simp
  refine (PlainDot.matmul_zero_apply plain none _ _ (prow h w) co).trans ?_
  refine Finset.sum_congr rfl fun k _ => ?_
  refine congrArg₂ (· * ·) ?_ ?_
  · refine (Cert.ConvLayout.pat9_window _ _ _ _ _ _ _ _ _ h w k (prow h w) rfl (wrow h (dy1152 k)) (sh w (dx1152 k)) (ci1152 k) rfl rfl rfl).trans ?_
    exact shapeCast_1abc_abc_apply v3 _ _ _ _
  · exact congrFun (shapeCast_self v19 _) (ix2 k co)

/-! ## What one grid point leaves in the output's staging buffer -/

variable {F : FTy → Type} [FloatOps F]

theorem hz4 : (![0, 0, 0, 0] : Fin 4 → Nat) = fun _ => 0 := funext fun a => by fin_cases a <;> rfl

/-- The body's one store covers the output's staging buffer, so the buffer ends at the stored tile: the body's
    arithmetic of what it loaded, rows 8·t₁ … 8·t₁ + 9 of the image block and the whole weight matrix. -/
theorem out_A (c : Dev nD) (i : grid0.Coords) (a2 : Memref sig .tc .vmem S1x66x66x128 .f32) (h2 : a2.IsWhole)
    (a3 : Memref sig .tc .vmem S1152x256 .f32) (h3 : a3.IsWhole) (a4 : Memref sig .tc .vmem S1x8x64x256 .f32) (h4 : a4.IsWhole)
    (x0 : Vec F S1x66x66x128 .f32) (x1 : Vec F S1152x256 .f32) :
    out0_A_2 c i a2 h2 a3 h3 a4 h4 x0 x1
      = k0_pay1 (View.ld x0 (Rect.unit (s := S1x66x66x128) (k0_off1 i) S1x10x66x128.size (k0_off1_inb i)))
          (View.ld x1 (Rect.unit (s := S1152x256) ![0, 0] S1152x256.size inb_S1152x256_S1152x256_0_0)) := by
  unfold out0_A_2
  rw [View.read_writes_eq_canon _ _ _ (cover0_A_2 c i a2 h2 a3 h3 a4 h4 x0 x1)]
  unfold kernelRun0_A
  dsimp only
  rw [View.canon_unit_zero hz4]
  sl_unfold_run_names
  simp only [View.readAt_eq_ld, h2.read_unread, h3.read_unread]

/-! ## The blocks a grid point works on, as entries of the arrays the region finds -/

variable (m : (ℓ : Loc nD τ sig) → Buf (Elt Ideal) ℓ) (ρ : Dev nD → PrngReg)

/-- The padded image and the weight matrix as the region finds them, and a point's blocks of them. -/
abbrev xarr (c : Dev nD) : Vec Ideal S32x66x66x128 .f32 := V m c main_v16
abbrev warr (c : Dev nD) : Vec Ideal S1152x256 .f32 := V m c main_v14
abbrev xblk (c : Dev nD) (t : Fin cfg0.N) : Vec Ideal S1x66x66x128 .f32 := iblk m c 0 t
abbrev wblk (c : Dev nD) (t : Fin cfg0.N) : Vec Ideal S1152x256 .f32 := iblk m c 1 t

/-- The printed index maps over the 32 × 8 grid: point t is image t / 8, row tile t mod 8. The image window holds
    image t / 8 whole, the weight window the whole matrix, the output window rows 8·(t mod 8) … + 7 of image t / 8. -/
theorem idx_facts : ∀ t : Fin cfg0.N,
    win0_0.index t (0 : Fin 4) = t.val / 8 ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 4) = t.val / 8 ∧ win0_2.index t (1 : Fin 4) = t.val % 8 ∧ win0_2.index t (2 : Fin 4) = 0 ∧ win0_2.index t (3 : Fin 4) = 0
    ∧ (grid0.coords t 1).val = t.val % 8 :=
  (by decide +kernel : ∀ t : Fin grid0.N, _)

theorem xblk_apply (c : Dev nD) (t : Fin cfg0.N) (r cc : Fin 66) (ci : Fin 128) (b : Fin 32) (hb : b.val = t.val / 8) :
    xblk m c t (ix4 0 r cc ci) = xarr m c (ix4 b r cc ci) := by
  obtain ⟨e0, e1, e2, e3, -⟩ := idx_facts t
  show ((cfg0.win 0).blk t).view.read (Elt Ideal) (V m c (Pipeline.arrRef spec0 0)) (ix4 0 r cc ci) = V m c main_v16 (ix4 b r cc ci)
  rw [View.read_apply]
  show V m c main_v16 (((cfg0.win 0).blk t).view.emb (ix4 0 r cc ci)) = V m c main_v16 (ix4 b r cc ci)
  refine congrArg (V m c main_v16) ?_
  funext a
  apply Fin.ext
  match a with
  | ⟨0, _⟩ => show win0_0.index t (0 : Fin 4) * 1 + 1 * 0 = b.val; omega
  | ⟨1, _⟩ => show win0_0.index t (1 : Fin 4) * 66 + 1 * r.val = r.val; omega
  | ⟨2, _⟩ => show win0_0.index t (2 : Fin 4) * 66 + 1 * cc.val = cc.val; omega
  | ⟨3, _⟩ => show win0_0.index t (3 : Fin 4) * 128 + 1 * ci.val = ci.val; omega

theorem wblk_apply (c : Dev nD) (t : Fin cfg0.N) (k : Fin 1152) (co : Fin 256) :
    wblk m c t (ix2 k co) = warr m c (ix2 k co) := by
  obtain ⟨-, -, -, -, e0, e1, -⟩ := idx_facts t
  show ((cfg0.win 1).blk t).view.read (Elt Ideal) (V m c (Pipeline.arrRef spec0 1)) (ix2 k co) = V m c main_v14 (ix2 k co)
  rw [View.read_apply]
  show V m c main_v14 (((cfg0.win 1).blk t).view.emb (ix2 k co)) = V m c main_v14 (ix2 k co)
  refine congrArg (V m c main_v14) ?_
  funext a
  apply Fin.ext
  match a with
  | ⟨0, _⟩ => show win0_1.index t (0 : Fin 2) * 1152 + 1 * k.val = k.val; omega
  | ⟨1, _⟩ => show win0_1.index t (1 : Fin 2) * 256 + 1 * co.val = co.val; omega

/-- The body's load of ten rows of the image block, from row 8·(t mod 8) on. -/
theorem ldx_apply (c : Dev nD) (t : Fin cfg0.N) (r : Fin 10) (cc : Fin 66) (ci : Fin 128) (b : Fin 32) (hb : b.val = t.val / 8)
    (R : Fin 66) (hR : R.val = 8 * (t.val % 8) + r.val) :
    View.ld (xblk m c t) (Rect.unit (s := S1x66x66x128) (k0_off1 (grid0.coords t)) S1x10x66x128.size (k0_off1_inb (grid0.coords t))) (ix4 0 r cc ci)
      = xarr m c (ix4 b R cc ci) := by
  obtain ⟨-, -, -, -, -, -, -, -, -, -, eg⟩ := idx_facts t
  have e : (Rect.unit (s := S1x66x66x128) (k0_off1 (grid0.coords t)) S1x10x66x128.size (k0_off1_inb (grid0.coords t))).idx (ix4 0 r cc ci)
      = ix4 0 R cc ci := by
    funext a
    apply Fin.ext
    match a with
    | ⟨0, _⟩ => show k0_off1 (grid0.coords t) 0 + 1 * 0 = 0; rw [k0_off1_eq]; rfl
    | ⟨1, _⟩ => show k0_off1 (grid0.coords t) 1 + 1 * r.val = R.val; rw [k0_off1_eq]; show 8 * (grid0.coords t 1).val + 1 * r.val = R.val; omega
    | ⟨2, _⟩ => show k0_off1 (grid0.coords t) 2 + 1 * cc.val = cc.val; rw [k0_off1_eq]; show 0 + 1 * cc.val = cc.val; omega
    | ⟨3, _⟩ => show k0_off1 (grid0.coords t) 3 + 1 * ci.val = ci.val; rw [k0_off1_eq]; show 0 + 1 * ci.val = ci.val; omega
  show xblk m c t ((Rect.unit (s := S1x66x66x128) (k0_off1 (grid0.coords t)) S1x10x66x128.size (k0_off1_inb (grid0.coords t))).idx (ix4 0 r cc ci)) = _
  rw [e]
  exact xblk_apply m c t R cc ci b hb

/-- The body's load of the whole weight block. -/
theorem ldw_apply (c : Dev nD) (t : Fin cfg0.N) (k : Fin 1152) (co : Fin 256) :
    View.ld (wblk m c t) (Rect.unit (s := S1152x256) ![0, 0] S1152x256.size inb_S1152x256_S1152x256_0_0) (ix2 k co) = warr m c (ix2 k co) := by
  have e : (Rect.unit (s := S1152x256) ![0, 0] S1152x256.size inb_S1152x256_S1152x256_0_0).idx (ix2 k co) = ix2 k co := by
    funext a
    apply Fin.ext
    match a with
    | ⟨0, _⟩ => show 0 + 1 * k.val = k.val; omega
    | ⟨1, _⟩ => show 0 + 1 * co.val = co.val; omega
  show wblk m c t ((Rect.unit (s := S1152x256) ![0, 0] S1152x256.size inb_S1152x256_S1152x256_0_0).idx (ix2 k co)) = _
  rw [e]
  exact wblk_apply m c t k co

/-! ## The result array as one function of the two arrays the region finds -/

/-- The convolution in the reference's own arrangement: X the padded image, W2 the weight matrix
    [(row tap, column tap, channel), out-channel]; one 1152-term sum. -/
def G (X : Vec Ideal S32x66x66x128 .f32) (W2 : Vec Ideal S1152x256 .f32) : Vec Ideal S32x64x64x256 .f32 := fun j =>
  ∑ k : Fin 1152, X (ix4 (j 0) (sh (j 1) (dy1152 k)) (sh (j 2) (dx1152 k)) (ci1152 k)) * W2 (ix2 k (j 3))

/-- The tile point t stores, entry by entry, is G's rows 8·(t mod 8) … + 7 of image t / 8. -/
theorem tile_eq (c : Dev nD) (t : Fin cfg0.N) (b : Fin 32) (hb : b.val = t.val / 8) (h : Fin 8) (H : Fin 64)
    (hH : H.val = 8 * (t.val % 8) + h.val) (w : Fin 64) (co : Fin 256) :
    k0_pay1 (F := Ideal)
        (View.ld (xblk m c t) (Rect.unit (s := S1x66x66x128) (k0_off1 (grid0.coords t)) S1x10x66x128.size (k0_off1_inb (grid0.coords t))))
        (View.ld (wblk m c t) (Rect.unit (s := S1152x256) ![0, 0] S1152x256.size inb_S1152x256_S1152x256_0_0))
        (ix4 0 h w co)
      = G (xarr m c) (warr m c) (ix4 b H w co) := by
  rw [pay_apply]
  show _ = ∑ k : Fin 1152, xarr m c (ix4 b (sh H (dy1152 k)) (sh w (dx1152 k)) (ci1152 k)) * warr m c (ix2 k co)
  refine Finset.sum_congr rfl fun k _ => congrArg₂ (· * ·) ?_ (ldw_apply m c t k co)
  exact ldx_apply m c t (wrow h (dy1152 k)) (sh w (dx1152 k)) (ci1152 k) b hb (sh H (dy1152 k))
    (by show H.val + (dy1152 k).val = 8 * (t.val % 8) + (h.val + (dy1152 k).val); omega)

/-- What point t writes back is block t of G of the two arrays. -/
theorem flushed_eq (c : Dev nD) (t : Fin cfg0.N) :
    (dats m 0 c).flushed 2 t = ((cfg0.win 2).blk t).view.read (Elt Ideal) (G (xarr m c) (warr m c)) := by
  obtain ⟨-, -, -, -, -, -, e0, e1, e2, e3, -⟩ := idx_facts t
  have ht : t.val < 256 := by have := t.isLt; have hN : cfg0.N = 256 := N_0; omega
  show (cfg0.win 2).cut (grid0.coords t) ((dats m 0 c).after 2 t) = _
  rw [after0_2]
  unfold outsAt0
  rw [out_A]
  funext j
  have h0 : (j 0).val < 1 := (j 0).isLt
  have h1 : (j 1).val < 8 := (j 1).isLt
  have h2 : (j 2).val < 64 := (j 2).isLt
  have h3 : (j 3).val < 256 := (j 3).isLt
  rw [View.read_apply]
  have ej : (cfg0.win 2).xinj (grid0.coords t) j = ix4 (0 : Fin 1) (⟨(j 1).val, h1⟩ : Fin 8) (⟨(j 2).val, h2⟩ : Fin 64) (⟨(j 3).val, h3⟩ : Fin 256) := by
    funext a
    apply Fin.ext
    match a with
    | ⟨0, _⟩ => show (j 0).val = 0; omega
    | ⟨1, _⟩ => rfl
    | ⟨2, _⟩ => rfl
    | ⟨3, _⟩ => rfl
  have ee : ((cfg0.win 2).blk t).view.emb j
      = ix4 (⟨t.val / 8, by omega⟩ : Fin 32) (⟨8 * (t.val % 8) + (j 1).val, by omega⟩ : Fin 64) (⟨(j 2).val, h2⟩ : Fin 64) (⟨(j 3).val, h3⟩ : Fin 256) := by
    funext a
    apply Fin.ext
    match a with
    | ⟨0, _⟩ => show win0_2.index t (0 : Fin 4) * 1 + 1 * (j 0).val = t.val / 8; omega
    | ⟨1, _⟩ => show win0_2.index t (1 : Fin 4) * 8 + 1 * (j 1).val = 8 * (t.val % 8) + (j 1).val; omega
    | ⟨2, _⟩ => show win0_2.index t (2 : Fin 4) * 64 + 1 * (j 2).val = (j 2).val; omega
    | ⟨3, _⟩ => show win0_2.index t (3 : Fin 4) * 256 + 1 * (j 3).val = (j 3).val; omega
  unfold Pipeline.Window.cut
  rw [ej]
  refine (tile_eq m c t (⟨t.val / 8, by omega⟩ : Fin 32) rfl (⟨(j 1).val, h1⟩ : Fin 8) (⟨8 * (t.val % 8) + (j 1).val, by omega⟩ : Fin 64) rfl
    (⟨(j 2).val, h2⟩ : Fin 64) (⟨(j 3).val, h3⟩ : Fin 256)).trans ?_
  exact congrArg (G (xarr m c) (warr m c)) ee.symm

/-- An entry of the result array is in point t's block iff each coordinate is in the block's range on its axis. -/
theorem mem_blk (t : Fin cfg0.N) (i : S32x64x64x256.Idx) :
    i ∈ ((cfg0.win 2).blk t).view.set ↔ ∀ a : Fin 4, win0_2.index t a * S1x8x64x256.size a ≤ (i a).val
      ∧ (i a).val < win0_2.index t a * S1x8x64x256.size a + S1x8x64x256.size a := by
  show i ∈ ((View.whole main_v17).slice (win0_2.rect t)).set ↔ _
  rw [View.set_slice_whole, Rect.mem_set_unit]
  exact Iff.rfl

/-- The 256 tiles cover the result array (entry (b, h, ·, ·) is in point 8·b + h / 8's), so it ends at G. -/
theorem final (c : Dev nD) : (dats m 0 c).arrAt 2 cfg0.N = G (xarr m c) (warr m c) :=
  (dats m 0 c).arrAt_eq_of_cover 2 _ (fun t _ => flushed_eq m c t) fun i => by
    have hi0 : (i 0).val < 32 := (i 0).isLt
    have hi1 : (i 1).val < 64 := (i 1).isLt
    have hi2 : (i 2).val < 64 := (i 2).isLt
    have hi3 : (i 3).val < 256 := (i 3).isLt
    have hN : cfg0.N = 256 := N_0
    obtain ⟨t, ht⟩ : ∃ t : Fin cfg0.N, t.val = (i 0).val * 8 + (i 1).val / 8 := ⟨⟨(i 0).val * 8 + (i 1).val / 8, by omega⟩, rfl⟩
    obtain ⟨-, -, -, -, -, -, e0, e1, e2, e3, -⟩ := idx_facts t
    refine ⟨t, flush0_2 t, ?_⟩
    rw [mem_blk]
    intro a
    match a with
    | ⟨0, _⟩ => show win0_2.index t (0 : Fin 4) * 1 ≤ (i 0).val ∧ (i 0).val < win0_2.index t (0 : Fin 4) * 1 + 1; omega
    | ⟨1, _⟩ => show win0_2.index t (1 : Fin 4) * 8 ≤ (i 1).val ∧ (i 1).val < win0_2.index t (1 : Fin 4) * 8 + 8; omega
    | ⟨2, _⟩ => show win0_2.index t (2 : Fin 4) * 64 ≤ (i 2).val ∧ (i 2).val < win0_2.index t (2 : Fin 4) * 64 + 64; omega
    | ⟨3, _⟩ => show win0_2.index t (3 : Fin 4) * 256 ≤ (i 3).val ∧ (i 3).val < win0_2.index t (3 : Fin 4) * 256 + 256; omega

/-! ## The two arrays as functions of the arguments: the host operations before the region -/

/-- The filter normalised per output channel: w / (ε + ‖w_co‖ · s) · s, with s the program's literal for 1/√1152 and
    ε its literal for 1e-4, ‖·‖ the square root of the sum of squares over (ci, dy, dx). Carried whole; never opened. -/
def wn (w : FVec Ideal S256x128x3x3 .f32) : FVec Ideal S256x128x3x3 .f32 :=
  mulf
    (Host.divf (F := Ideal) w
      (broadcastInDim S256x128x3x3 ![0, 1, 2, 3] bcast_S256x1x1x1_S256x128x3x3_0_1_2_3
        (addf (broadcastInDim S256x1x1x1 ![] bcast_S_S256x1x1x1 (constant (F := Ideal) S_ .f32 0x38D1B717#32))
          (mulf
            (Host.sqrt (F := Ideal)
              (broadcastInDim S256x1x1x1 ![0] bcast_S256_S256x1x1x1_0
                (Host.reduceAdd (F := Ideal) (mulf w w) (constant (F := Ideal) S_ .f32 0x00000000#32) reducesTo_S256x128x3x3_S256_d1_2_3 h_S_)))
            (broadcastInDim S256x1x1x1 ![] bcast_S_S256x1x1x1 (constant (F := Ideal) S_ .f32 0x3CF15BEF#32))))))
    (broadcastInDim S256x128x3x3 ![] bcast_S_S256x128x3x3 (constant (F := Ideal) S_ .f32 0x3CF15BEF#32))

/-- The image moved to [batch, row, column, channel] order and framed by one ring of the padding value. -/
def xpad (x : FVec Ideal S32x128x64x64 .f32) : FVec Ideal S32x66x66x128 .f32 :=
  pad S32x66x66x128 ![0, 1, 1, 0] ![0, 1, 1, 0] ![0, 0, 0, 0]
    (transpose S32x64x64x128 [0, 2, 3, 1] x transposes_S32x128x64x64_S32x64x64x128_0_2_3_1)
    (sitofp (F := Ideal) .f32 (constantI S_ 32 0#32)) pads_S32x64x64x128_S32x66x66x128_000_110_110_000 h_S_

theorem warr_eq (c : Dev nD) : warr m c
    = pad S1152x256 ![0, 0] ![0, 0] ![0, 0]
        (shapeCast S1152x256 (transpose S3x3x128x256 [2, 3, 1, 0] (wn (m ((c : Thread nD τ).loc main_arg1)))
          transposes_S256x128x3x3_S3x3x128x256_2_3_1_0) shapeCasts_S3x3x128x256_S1152x256)
        (sitofp (F := Ideal) .f32 (constantI S_ 32 0#32)) pads_S1152x256_S1152x256_000_000 h_S_ := by
  unfold wn
  show (V m c main_v14 : Vec Ideal S1152x256 .f32) = _
  dsimp only [V, V0]
  simp only [hostOps0, hostOps0_1, hostOps0_2, hostOps0_3, List.flatten_cons, List.flatten_nil, List.append_nil, List.cons_append, List.nil_append]
  after_results
  rfl

theorem xarr_eq (c : Dev nD) : xarr m c = xpad (m ((c : Thread nD τ).loc main_arg0)) := by
  unfold xpad
  show (V m c main_v16 : Vec Ideal S32x66x66x128 .f32) = _
  dsimp only [V, V0]
  simp only [hostOps0, hostOps0_1, hostOps0_2, hostOps0_3, List.flatten_cons, List.flatten_nil, List.append_nil, List.cons_append, List.nil_append]
  after_results
  rfl

/-- The weight matrix's entry ((dy·3 + dx)·128 + ci, co) is the normalised filter's entry (co, ci, dy, dx): the padding
    adds nothing on either axis. -/
theorem warr_apply (c : Dev nD) (k : Fin 1152) (co : Fin 256) :
    warr m c (ix2 k co) = wn (m ((c : Thread nD τ).loc main_arg1)) (ix4 co (ci1152 k) (dy1152 k) (dx1152 k)) := by
  rw [warr_eq]
  refine (pad_apply_of_inside _ _ _ _ _ _ _ (ix2 k co) (ix2 k co) ?_).trans ?_
  · intro a
    match a with
    | ⟨0, _⟩ => show k.val = 0 + k.val * (0 + 1); omega
    | ⟨1, _⟩ => show co.val = 0 + co.val * (0 + 1); omega
  refine (shapeCast_apply _ _ (ix2 k co) (ix4 (dy1152 k) (dx1152 k) (ci1152 k) co) ?_).trans ?_
  · rw [Shape.rowMajor_val_two, Shape.rowMajor_val_four]
    have hk := k.isLt
    show ((k.val / 384 * 3 + k.val / 128 % 3) * 128 + k.val % 128) * 256 + co.val = k.val * 256 + co.val
    omega
  · refine transpose_apply _ _ _ (ix4 (dy1152 k) (dx1152 k) (ci1152 k) co) (ix4 co (ci1152 k) (dy1152 k) (dx1152 k)) ?_
    intro b
    match b with
    | ⟨0, _⟩ => rfl
    | ⟨1, _⟩ => rfl
    | ⟨2, _⟩ => rfl
    | ⟨3, _⟩ => rfl

/-- So the result array is the convolution of the padded image with the normalised filter. -/
theorem G_eq_conv (c : Dev nD) :
    G (xarr m c) (warr m c) = conv (xpad (m ((c : Thread nD τ).loc main_arg0))) (wn (m ((c : Thread nD τ).loc main_arg1))) := by
  funext j
  obtain ⟨b, h, w, co, rfl⟩ : ∃ (b : Fin 32) (h w : Fin 64) (co : Fin 256), j = ix4 b h w co := ⟨j 0, j 1, j 2, j 3, eq_ix4 j⟩
  rw [conv_apply, ← convAt_eq_one, ← xarr_eq]
  show (∑ k : Fin 1152, xarr m c (ix4 b (sh h (dy1152 k)) (sh w (dx1152 k)) (ci1152 k)) * warr m c (ix2 k co)) = _
  exact Finset.sum_congr rfl fun k _ => congrArg₂ (· * ·) rfl (warr_apply m c k co)

/-! ## The host operation after the region, and the run -/

theorem tail_eq (c : Dev nD) : Pipeline.afterTail₀ cfgs (dats m) 0 (V0 m) [hostOps1] c main_v18
    = transpose S32x256x64x64 [0, 3, 1, 2] ((dats m 0 c).arrAt 2 cfg0.N) transposes_S32x64x64x256_S32x256x64x64_0_3_1_2 := by
  unfold Pipeline.afterTail₀
  show StableHlo.after hostOps1 _ (Proc.devRef .tc main_v18) = _
  after_results
  exact congrArg (fun x => transpose S32x256x64x64 [0, 3, 1, 2] x transposes_S32x64x64x256_S32x256x64x64_0_3_1_2)
    (Pipeline.withArrays_arr spec0 launch0.win.arr_inj c _ _ 2)

/-- The reference's program, run: the result is the convolution of the padded image with the normalised filter, moved to
    [batch, out-channel, row, column] order; the arguments are unchanged. -/
theorem run : θ_run defs (onTc (τ := τ) (main (F := Ideal))) ⟨m, fun _ => 0, ρ⟩ fun r => ∀ c : Dev nD,
      r.2.mem ((c : Thread nD τ).loc main_v18)
        = transpose S32x256x64x64 [0, 3, 1, 2]
            (conv (xpad (m ((c : Thread nD τ).loc main_arg0))) (wn (m ((c : Thread nD τ).loc main_arg1))))
            transposes_S32x64x64x256_S32x256x64x64_0_3_1_2
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v18 (Pipeline.mem_restRefs_of main_v18 (by decide) (by decide))).trans
        ((tail_eq m c).trans (by rw [final, G_eq_conv])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.ReferenceIdeal.ConvValue

end
-- ==== Proof.lean ====
/-
  The kernel and its reference are one convolution.

  Both programs normalise the filter the same way (the same operations on the same literals: w divided by
  ε + ‖w_co‖·s, times s), move the image to [batch, row, column, channel] order and frame it with one ring of zeros
  (a change of float format is the identity on the extended reals, and the integer 0 converts to the same 0 in either
  format), and run a 32 × 8 grid whose point (b, t) computes rows 8t … 8t + 7 of image b. The kernel multiplies three
  patch matrices [512, 384], one per column tap, by the matching slabs of a weight cube and adds the three products;
  the reference multiplies one patch matrix [512, 1152] by one weight matrix. Entry (b, h, w, co) of either result is
  the sum over row tap dy, column tap dx and channel ci of X(b, h + dy, w + dx, ci) · W(co, ci, dy, dx), taken in a
  different order and grouping; addition of extended reals is commutative and associative, so the two agree for
  every input, finite or not. Both programs then move the result to [batch, out-channel, row, column] order.
  The three frames are the generated ones (each program launches one pallas_call); the ideal pass rewrote nothing.
-/
import proofs.«153398_g2000206331192017_pallasbulk_745_6_alg».proof.Defs
import proofs.«153398_g2000206331192017_pallasbulk_745_6_alg».proof.Proof.Gen.Kernel
import proofs.«153398_g2000206331192017_pallasbulk_745_6_alg».proof.Proof.Gen.Kernel.Frame
import proofs.«153398_g2000206331192017_pallasbulk_745_6_alg».proof.Proof.Gen.KernelIdeal
import proofs.«153398_g2000206331192017_pallasbulk_745_6_alg».proof.Proof.Gen.KernelIdeal.Frame
import proofs.«153398_g2000206331192017_pallasbulk_745_6_alg».proof.Proof.Gen.ReferenceIdeal
import proofs.«153398_g2000206331192017_pallasbulk_745_6_alg».proof.Proof.Gen.ReferenceIdeal.Frame
import proofs.«153398_g2000206331192017_pallasbulk_745_6_alg».proof.Proof.Gen.Pre_finite_inputs
import proofs.«153398_g2000206331192017_pallasbulk_745_6_alg».proof.Proof.KernelValue
import proofs.«153398_g2000206331192017_pallasbulk_745_6_alg».proof.Proof.ReferenceValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote no operation. -/
theorem preserves : Cert.preserves_Kernel_KernelIdeal := trivial

/-- The two programs normalise the filter by the same operations on the same literals. -/
theorem wn_eq (w : FVec Ideal Cert.KernelIdeal.S256x128x3x3 .f32) :
    Cert.ReferenceIdeal.ConvValue.wn w = Cert.KernelIdeal.ConvValue.wn w := rfl

/-- The two programs pad the same re-ordered image with the same zero: on the extended reals a change of float
    format is the identity and the integer 0 converts to 0 whatever the format. -/
theorem xpad_eq (x : FVec Ideal Cert.KernelIdeal.S32x128x64x64 .f32) :
    Cert.ReferenceIdeal.ConvValue.xpad x = Cert.KernelIdeal.ConvValue.xpad x := rfl

/-- Both runs end with the result at the convolution of the padded image with the normalised filter, re-ordered. -/
theorem algebraic : Cert.algebraic_KernelIdeal_ReferenceIdeal := by
  intro m ρ m' ρ' _ hagree
  refine ⟨fun c => _, Cert.KernelIdeal.ConvValue.run m ρ, ?_⟩
  refine (θ_run Cert.ReferenceIdeal.defs _ _).mono (fun _ h c => ⟨(h c).1.trans ?_, (h c).2⟩)
    (Cert.ReferenceIdeal.ConvValue.run m' ρ')
  rw [(hagree c).1, (hagree c).2, wn_eq, xpad_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
